-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x19x512x512 .f32) (main_arg1 : IVec S8x512x512 32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  let main_c_0 : IVec S_ 32 := constantI S_ 32 255#32
  let main_v4 : IVec S8x512x512 32 := broadcastInDim S8x512x512 ![] bcast_S_S8x512x512 main_c_0
  let main_v5 : IVec S8x512x512 1 := cmpi .eq main_arg1 main_v4
  let main_c_1 : IVec S_ 32 := constantI S_ 32 0#32
  let main_v6 : IVec S8x512x512 32 := broadcastInDim S8x512x512 ![] bcast_S_S8x512x512 main_c_1
  let main_v7 : IVec S8x512x512 1 := cmpi .sge main_arg1 main_v6
  let main_c_2 : IVec S_ 32 := constantI S_ 32 19#32
  let main_v8 : IVec S8x512x512 32 := broadcastInDim S8x512x512 ![] bcast_S_S8x512x512 main_c_2
  let main_v9 : IVec S8x512x512 1 := cmpi .slt main_arg1 main_v8
  let main_v10 : IVec S8x512x512 1 := andi main_v7 main_v9
  let main_v11 : IVec S8x512x512 1 := ori main_v5 main_v10
  let main_c_3 : IVec S_ 1 := constantI S_ 1 1#1
  let main_v12 : IVec S_ 1 := (fun x v => Host.reduce IntOp.andi x v reducesTo_S8x512x512_S_d0_1_2 h_S_) main_v11 main_c_3
  let main_v13 : IVec S_ 1 := andi main_v3 main_v12
  main_v13
-- ==== Kernel.lean ====
abbrev S8x19x512x512 : Shape := ⟨4, ![8, 19, 512, 512]⟩
abbrev S8x512x512 : Shape := ⟨3, ![8, 512, 512]⟩
abbrev S8x1x128 : Shape := ⟨3, ![8, 1, 128]⟩
abbrev S1x19x128x512 : Shape := ⟨4, ![1, 19, 128, 512]⟩
abbrev S1x128x512 : Shape := ⟨3, ![1, 128, 512]⟩
abbrev S1x1x128 : Shape := ⟨3, ![1, 1, 128]⟩
abbrev S1x512 : Shape := ⟨2, ![1, 512]⟩
abbrev S19x128x512 : Shape := ⟨3, ![19, 128, 512]⟩
abbrev S128x512 : Shape := ⟨2, ![128, 512]⟩
abbrev S19x1x1 : Shape := ⟨3, ![19, 1, 1]⟩
abbrev S512 : Shape := ⟨1, ![512]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x1x128, .f32⟩
  | .hbm, ⟨3, _⟩ => ⟨S8x1x128, .f32⟩
  | .hbm, ⟨4, _⟩ => ⟨S8x1x1, .f32⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S8x1x1, .f32⟩
  | .hbm, ⟨9, _⟩ => ⟨S8, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x19x128x512, .f32⟩
  | .local _ .vmem, ⟨1, _⟩ => ⟨S1x19x128x512, .f32⟩
  | .local _ .vmem, ⟨2, _⟩ => ⟨S1x128x512, .i32⟩
  | .local _ .vmem, ⟨3, _⟩ => ⟨S1x128x512, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x512, .f32⟩
  | .local _ .vmem, ⟨9, _⟩ => ⟨S1x512, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v60 : BitVec 1 := Scalar.cmpi .eq arg1 c3_i32
  let v61 : BitVec 32 := Scalar.extui v60
  let c0_i32_29 : BitVec 32 := 0#32
  let v62 : BitVec 1 := Scalar.cmpi .ne v61 c0_i32_29
  v62

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x19x128x512_S1x19x128x512_0_0_0_0 : ∀ a, (![0, 0, 0, 0] : Fin 4 → Nat) a + S1x19x128x512.size a ≤ S1x19x128x512.size a
  h_S1x19x128x512 : 0 < S1x19x128x512.numel
  shapeCasts_S1x19x128x512_S19x128x512 : S1x19x128x512.ShapeCasts S19x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  reduces_S19x128x512_S128x512 : S19x128x512.Reduces [0] S128x512
  shapeCasts_S128x512_S1x128x512 : S128x512.ShapeCasts S1x128x512
  broadcasts_S1x128x512_S19x128x512 : S1x128x512.Broadcasts S19x128x512
  iota_S19x1x1_d0_w32 : S19x1x1.Iotas .tc 32 [0]
  broadcasts_S19x1x1_S19x128x512 : S19x1x1.Broadcasts S19x128x512
  reduces_S128x512_S512 : S128x512.Reduces [0] S512
  shapeCasts_S512_S1x512 : S512.ShapeCasts S1x512
  reduces_S1x512_S1 : S1x512.Reduces [1] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x512.size a ≤ S8x19x512x512.size a
  hwx0_0 : ∀ i : grid0.Coords, EltTy.bits .f32 = 32 ∨ (Rect.block (s := S8x19x512x512) S1x19x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .i32 = 32 ∨ (Rect.block (s := S8x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

abbrev win0_0 : Pipeline.Window sig grid0 :=
  Pipeline.Window.ofSpec (Memref.whole main_arg0) S1x19x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S_, .i32⟩
  | .hbm, ⟨3, _⟩ => ⟨S8x512x512, .i32⟩
  | .hbm, ⟨4, _⟩ => ⟨S8x512x512, .i1⟩
  | .hbm, ⟨5, _⟩ => ⟨S8x512x512, .i1⟩
  | .hbm, ⟨6, _⟩ => ⟨S8x512x512, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S8x512x512, .i32⟩
  | .hbm, ⟨12, _⟩ => ⟨S8x512x512, .i32⟩
  | .hbm, ⟨13, _⟩ => ⟨S_, .f32⟩
  | .hbm, ⟨14, _⟩ => ⟨S8x512x512, .f32⟩
  | .hbm, ⟨15, _⟩ => ⟨S_, .f32⟩
  | .hbm, ⟨16, _⟩ => ⟨S8x512x512, .f32⟩
  | .hbm, ⟨17, _⟩ => ⟨S8x512x512, .f32⟩
  | .hbm, ⟨18, _⟩ => ⟨S8x1x512x512, .f32⟩
  | .hbm, ⟨19, _⟩ => ⟨S8x19x512x512, .f32⟩
  | .hbm, ⟨20, _⟩ => ⟨S8x19x512x512, .f32⟩
  | .hbm, ⟨21, _⟩ => ⟨S8x19x512x512, .f32⟩
  | .hbm, ⟨22, _⟩ => ⟨S_, .f32⟩
  | .hbm, ⟨23, _⟩ => ⟨S8x512x512, .f32⟩
  | .hbm, ⟨24, _⟩ => ⟨S8x1x512x512, .f32⟩
  | .hbm, ⟨25, _⟩ => ⟨S8x1x512x512, .f32⟩
  | .hbm, ⟨26, _⟩ => ⟨S8x19x512x512, .f32⟩
  | .hbm, ⟨27, _⟩ => ⟨S8x19x512x512, .f32⟩
  | .hbm, ⟨28, _⟩ => ⟨S8x1x512x512, .i32⟩
  | .hbm, ⟨29, _⟩ => ⟨S_, .i32⟩
  | .hbm, ⟨30, _⟩ => ⟨S8x1x512x512, .i32⟩
  | .hbm, ⟨31, _⟩ => ⟨S8x1x512x512, .i1⟩
  | .hbm, ⟨32, _⟩ => ⟨S_, .i32⟩
  | .hbm, ⟨33, _⟩ => ⟨S8x1x512x512, .i32⟩
  | .hbm, ⟨34, _⟩ => ⟨S8x1x512x512, .i32⟩
  | .hbm, ⟨35, _⟩ => ⟨S8x1x512x512, .i32⟩
  | .hbm, ⟨36, _⟩ => ⟨S8x1x512x512x1, .i32⟩
  | .hbm, ⟨37, _⟩ => ⟨S1, .i32⟩
  | .hbm, ⟨38, _⟩ => ⟨S_, .i32⟩
  | .hbm, ⟨39, _⟩ => ⟨S8x1x512x512x1, .i32⟩
  | .hbm, ⟨40, _⟩ => ⟨S8x1x512x512x1, .i1⟩
  | .hbm, ⟨41, _⟩ => ⟨S1x1x1x1x1, .i32⟩
  | .hbm, ⟨42, _⟩ => ⟨S8x1x512x512x1, .i32⟩
  | .hbm, ⟨43, _⟩ => ⟨S8x1x512x512x1, .i1⟩
  | .hbm, ⟨44, _⟩ => ⟨S8x1x512x512x1, .i1⟩
  | .hbm, ⟨45, _⟩ => ⟨S_, .i1⟩
  | .hbm, ⟨46, _⟩ => ⟨S8x1x512x512, .i1⟩
  | .hbm, ⟨47, _⟩ => ⟨S8x1x512x512, .f32⟩
  | .hbm, ⟨48, _⟩ => ⟨S_, .f32⟩
  | .hbm, ⟨49, _⟩ => ⟨S8x1x512x512, .f32⟩
  | .hbm, ⟨50, _⟩ => ⟨S8x1x512x512, .f32⟩
  | .hbm, ⟨51, _⟩ => ⟨S8x512x512, .f32⟩
  | .hbm, ⟨52, _⟩ => ⟨S_, .f32⟩
  | .hbm, ⟨53, _⟩ => ⟨S8x512x512, .f32⟩
  | .hbm, ⟨54, _⟩ => ⟨S8x512x512, .f32⟩
  | .hbm, ⟨55, _⟩ => ⟨S_, .f32⟩
  | .hbm, ⟨56, _⟩ => ⟨S8x512x512, .f32⟩
  | .hbm, ⟨57, _⟩ => ⟨S_, .f32⟩
  | .hbm, ⟨58, _⟩ => ⟨S8x512x512, .f32⟩
  | .hbm, ⟨59, _⟩ => ⟨S8x512x512, .f32⟩
  | .hbm, ⟨60, _⟩ => ⟨S8x512x512, .f32⟩
  | .hbm, ⟨61, _⟩ => ⟨S8x512x512, .f32⟩
  | .hbm, ⟨62, _⟩ => ⟨S_, .f32⟩
  | .hbm, ⟨63, _⟩ => ⟨S_, .f32⟩
  | .hbm, ⟨64, _⟩ => ⟨S8x512x512, .f32⟩
  | .hbm, ⟨65, _⟩ => ⟨S8x512x512, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_call1_cst : Ref sig .tc := ⟨.hbm, 13, rfl⟩
abbrev main_call1_v0 : Ref sig .tc := ⟨.hbm, 14, rfl⟩
abbrev main_call1_cst_0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_cst_1 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_v6 : Ref sig .tc := ⟨.hbm, 27, rfl⟩
abbrev main_v7 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v8 : Ref sig .tc := ⟨.hbm, 50, rfl⟩
abbrev main_v9 : Ref sig .tc := ⟨.hbm, 51, rfl⟩
abbrev main_cst : Ref sig .tc := ⟨.hbm, 52, rfl⟩
abbrev main_v10 : Ref sig .tc := ⟨.hbm, 53, rfl⟩
abbrev main_v11 : Ref sig .tc := ⟨.hbm, 54, rfl⟩
abbrev main_cst_2 : Ref sig .tc := ⟨.hbm, 55, rfl⟩
abbrev main_v12 : Ref sig .tc := ⟨.hbm, 56, rfl⟩
abbrev main_cst_3 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_cst_4 : Ref sig .tc := ⟨.hbm, 62, rfl⟩
abbrev main_call3_v0 : Ref sig .tc := ⟨.hbm, 63, rfl⟩
abbrev main_call3_v1 : Ref sig .tc := ⟨.hbm, 64, rfl⟩
abbrev main_v17 : Ref sig .tc := ⟨.hbm, 65, rfl⟩
abbrev main_cst_5 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩

abbrev nD : Nat := 1
abbrev τ : Topo := Topo.v7x

variable {F : FTy → Type} [FloatOps F]

class Facts₀ : Prop where
  bcast_S_S8x512x512 : S_.BroadcastsInDim S8x512x512 (![] : Fin 0 → Fin S8x512x512.rank)
  natLt_1_32 : 1 < 32
  reducesTo_S8x512x512_S_d0_1_2 : S8x512x512.ReducesTo [0, 1, 2] S_
  h_S_ : 0 < S_.numel
  reducesTo_S8x19x512x512_S8x512x512_d1 : S8x19x512x512.ReducesTo [1] S8x512x512
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  gather_S8x19x512x512_S8x1x512x512x1_S8x1x512x512_n_1_023_023_1_4_1111_wf : GatherDims.WF S8x19x512x512 S8x1x512x512x1 S8x1x512x512 [] [1] [0, 2, 3] [1] [0, 2, 3] 4 ![1, 1, 1, 1]

variable [Facts₀]

def gather_S8x19x512x512_S8x1x512x512x1_S8x1x512x512_n_1_023_023_1_4_1111 : GatherDims S8x19x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x19x512x512_S8x1x512x512x1_S8x1x512x512_n_1_023_023_1_4_1111_wf

class Facts : Prop extends Facts₀ where

variable [Facts]
-- ==== Proof.KernelPieces.lean ====
/-
  What each control case of the kernel body leaves in its buffers, as the body's named pure terms.

  The body keeps two running rows (a loss row and a count row of 512 lanes). At the first row-tile of an image
  it stores zeros into both and then adds the tile's column sums; at the other tiles it adds the tile's column
  sums to what the tile before left; at the last tile it also writes the lane sum of each row, replicated over
  128 lanes, into the two outputs.
-/
import proofs.«422704_j68393059221597_2_alg».proof.Proof.Gen.KernelIdeal.Frame
import Idealize.ShloMosaic.Lib.Pipeline.Value

set_option maxRecDepth 16384

noncomputable section

namespace Cert.SmoothCE.Kernel

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The tile's contribution added to a loss row `r`. -/
abbrev lossRow (x0 : Vec F S1x19x128x512 .f32) (x1 : Vec F S1x128x512 .i32) (r : Vec F S1x512 .f32) : Vec F S1x512 .f32 :=
  k0_pay1 (k0_pay9 x1) (k0_pay11 x0 x1) (k0_pay12 x0) r

/-- The tile's contribution added to a count row `r`. -/
abbrev countRow (x1 : Vec F S1x128x512 .i32) (r : Vec F S1x512 .f32) : Vec F S1x512 .f32 :=
  k0_pay2 (k0_pay9 (F := F) x1) r

/-- First tile of an image: the loss row is the tile's contribution added to the stored zeros. -/
theorem lossA (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i) (x0 : Vec F S1x19x128x512 .f32) (x1 : Vec F S1x128x512 .i32) :
    sout0_A_0 c i arg2 harg2 arg3 harg3 arg4 harg4 arg5 harg5 arg6 harg6 arg7 harg7 hc0 hc1 x0 x1 = lossRow x0 x1 (k0_pay5 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x512) hz2, View.readCov_unit_zero (S := S1x512) _ hz2]
  simp only [View.readCov_unit_zero (S := S1x512) _ hz2, View.readAt_eq_ld, harg2.read_unread, harg3.read_unread, harg6.read_unread, harg7.read_unread, View.ld_unit_zero (S := S1x19x128x512) hz4, View.ld_unit_zero (S := S1x128x512) hz3, View.ld_unit_zero (S := S1x512) hz2]

/-- First tile of an image: the count row likewise. -/
theorem countA (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i) (x0 : Vec F S1x19x128x512 .f32) (x1 : Vec F S1x128x512 .i32) :
    sout0_A_1 c i arg2 harg2 arg3 harg3 arg4 harg4 arg5 harg5 arg6 harg6 arg7 harg7 hc0 hc1 x0 x1 = countRow x1 (k0_pay6 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x512) hz2, View.readCov_unit_zero (S := S1x512) _ hz2]
  simp only [View.readCov_unit_zero (S := S1x512) _ hz2, View.readAt_eq_ld, harg2.read_unread, harg3.read_unread, harg6.read_unread, harg7.read_unread, View.ld_unit_zero (S := S1x19x128x512) hz4, View.ld_unit_zero (S := S1x128x512) hz3, View.ld_unit_zero (S := S1x512) hz2]

/-- A middle tile: the loss row is the tile's contribution added to the row the tile before left. -/
theorem lossB (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i) (x0 : Vec F S1x19x128x512 .f32) (x1 : Vec F S1x128x512 .i32) (xs0 : Vec F S1x512 .f32) (xs1 : Vec F S1x512 .f32) :
    sout0_B_0 c i arg2 harg2 arg3 harg3 arg4 harg4 arg5 harg5 arg6 harg6 arg7 harg7 hc0 hc1 x0 x1 xs0 xs1 = lossRow x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readCov_unit_zero (S := S1x512) _ hz2, View.readAt_eq_ld, harg2.read_unread, harg3.read_unread, harg6.read_unread, harg7.read_unread, View.ld_unit_zero (S := S1x19x128x512) hz4, View.ld_unit_zero (S := S1x128x512) hz3, View.ld_unit_zero (S := S1x512) hz2]

/-- A middle tile: the count row likewise. -/
theorem countB (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i) (x0 : Vec F S1x19x128x512 .f32) (x1 : Vec F S1x128x512 .i32) (xs0 : Vec F S1x512 .f32) (xs1 : Vec F S1x512 .f32) :
    sout0_B_1 c i arg2 harg2 arg3 harg3 arg4 harg4 arg5 harg5 arg6 harg6 arg7 harg7 hc0 hc1 x0 x1 xs0 xs1 = countRow x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readCov_unit_zero (S := S1x512) _ hz2, View.readAt_eq_ld, harg2.read_unread, harg3.read_unread, harg6.read_unread, harg7.read_unread, View.ld_unit_zero (S := S1x19x128x512) hz4, View.ld_unit_zero (S := S1x128x512) hz3, View.ld_unit_zero (S := S1x512) hz2]

/-- The last tile: the loss row as at a middle tile. -/
theorem lossC (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i) (x0 : Vec F S1x19x128x512 .f32) (x1 : Vec F S1x128x512 .i32) (xs0 : Vec F S1x512 .f32) (xs1 : Vec F S1x512 .f32) :
    sout0_C_0 c i arg2 harg2 arg3 harg3 arg4 harg4 arg5 harg5 arg6 harg6 arg7 harg7 hc0 hc1 x0 x1 xs0 xs1 = lossRow x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readCov_unit_zero (S := S1x512) _ hz2, View.readAt_eq_ld, harg2.read_unread, harg3.read_unread, harg6.read_unread, harg7.read_unread, View.ld_unit_zero (S := S1x19x128x512) hz4, View.ld_unit_zero (S := S1x128x512) hz3, View.ld_unit_zero (S := S1x512) hz2]

/-- The last tile: the count row as at a middle tile. -/
theorem countC (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i) (x0 : Vec F S1x19x128x512 .f32) (x1 : Vec F S1x128x512 .i32) (xs0 : Vec F S1x512 .f32) (xs1 : Vec F S1x512 .f32) :
    sout0_C_1 c i arg2 harg2 arg3 harg3 arg4 harg4 arg5 harg5 arg6 harg6 arg7 harg7 hc0 hc1 x0 x1 xs0 xs1 = countRow x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readCov_unit_zero (S := S1x512) _ hz2, View.readAt_eq_ld, harg2.read_unread, harg3.read_unread, harg6.read_unread, harg7.read_unread, View.ld_unit_zero (S := S1x19x128x512) hz4, View.ld_unit_zero (S := S1x128x512) hz3, View.ld_unit_zero (S := S1x512) hz2]

/-- The last tile: the first output's block is the lane sum of the finished loss row, replicated. -/
theorem outLossC (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i) (x0 : Vec F S1x19x128x512 .f32) (x1 : Vec F S1x128x512 .i32) (xs0 : Vec F S1x512 .f32) (xs1 : Vec F S1x512 .f32) :
    out0_C_2 c i arg2 harg2 arg3 harg3 arg4 harg4 arg5 harg5 arg6 harg6 arg7 harg7 hc0 hc1 x0 x1 xs0 xs1 = k0_pay3 (lossRow x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readCov_unit_zero (S := S1x512) _ hz2, View.readAt_eq_ld, harg2.read_unread, harg3.read_unread, harg6.read_unread, harg7.read_unread, View.ld_unit_zero (S := S1x19x128x512) hz4, View.ld_unit_zero (S := S1x128x512) hz3, View.ld_unit_zero (S := S1x512) hz2]

/-- The last tile: the second output's block is the lane sum of the finished count row, replicated. -/
theorem outCountC (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i) (x0 : Vec F S1x19x128x512 .f32) (x1 : Vec F S1x128x512 .i32) (xs0 : Vec F S1x512 .f32) (xs1 : Vec F S1x512 .f32) :
    out0_C_3 c i arg2 harg2 arg3 harg3 arg4 harg4 arg5 harg5 arg6 harg6 arg7 harg7 hc0 hc1 x0 x1 xs0 xs1 = k0_pay4 (countRow x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readCov_unit_zero (S := S1x512) _ hz2, View.readAt_eq_ld, harg2.read_unread, harg3.read_unread, harg6.read_unread, harg7.read_unread, View.ld_unit_zero (S := S1x19x128x512) hz4, View.ld_unit_zero (S := S1x128x512) hz3, View.ld_unit_zero (S := S1x512) hz2]

end Cert.SmoothCE.Kernel

end
-- ==== Proof.Spec.lean ====
/-
  The label-smoothed cross entropy, as one function of the argument arrays.

  For a pixel with logits `v : Fin 19 → EReal` the log-probability of class `c` is
  `(v c - M) - log (∑ c', exp (v c' - M))` with `M` the largest logit; a pixel whose label word is 255 is ignored
  (loss 0, not counted), any other pixel contributes `-(α · logp(label) + β · ∑ c, logp c)` with the two smoothing
  weights `α`, `β` kept as the single-precision words both programs print. The result is the sum of the pixel
  losses over the sum of the pixel counts.
-/
import Idealize.ShloMosaic.PureOps.Ideal
import Idealize.ShloMosaic.Lib.ValueIdx

noncomputable section

namespace Cert.SmoothCE

open Idealize.ShloMosaic Idealize.ShloMosaic.ValueIdx

/-- The weight of the target class's log-probability: the word both programs print for `0.9 - 0.1/19`. -/
def wPos : EReal := Ideal.ofBits .f32 0x3F650D79#32
/-- The weight of the sum of all log-probabilities: the word both programs print for `0.1/19`. -/
def wNeg : EReal := Ideal.ofBits .f32 0x3BAC7692#32

/-- The largest of a pixel's logits (the fold of `max` from the bottom element). -/
def mx (v : Fin 19 → EReal) : EReal := (Finset.univ : Finset (Fin 19)).fold max ⊥ v

/-- The log of the sum of the shifted exponentials. -/
def logSum (v : Fin 19 → EReal) : EReal := Ideal.log (∑ c : Fin 19, Ideal.exp (v c - mx v))

/-- The log-probability of class `c`. -/
def logp (v : Fin 19 → EReal) (c : Fin 19) : EReal := (v c - mx v) - logSum v

/-- The class a label word names (total: words outside the label range are reduced modulo 19; the
    precondition keeps them out). -/
def cls (l : BitVec 32) : Fin 19 := ⟨l.toNat % 19, Nat.mod_lt _ (by decide)⟩

/-- One pixel's loss. -/
def pixLoss (v : Fin 19 → EReal) (l : BitVec 32) : EReal :=
  if l = 255#32 then 0 else -(wPos * logp v (cls l) + wNeg * ∑ c : Fin 19, logp v c)

/-- One pixel's count: 0 when ignored, else 1. -/
def pixValid (l : BitVec 32) : EReal := if l = 255#32 then 0 else 1

/-- The logits of pixel `(n, y, x)`, by class. -/
def pixel (X : (⟨4, ![8, 19, 512, 512]⟩ : Shape).Idx → EReal) (n : Fin 8) (y x : Fin 512) : Fin 19 → EReal :=
  fun c => X (ix4 n c y x)

/-- The sum of the pixel losses. -/
def lossSum (X : (⟨4, ![8, 19, 512, 512]⟩ : Shape).Idx → EReal) (Lb : (⟨3, ![8, 512, 512]⟩ : Shape).Idx → BitVec 32) : EReal :=
  ∑ n : Fin 8, ∑ y : Fin 512, ∑ x : Fin 512, pixLoss (pixel X n y x) (Lb (ix3 n y x))

/-- The number of pixels that are not ignored. -/
def validSum (Lb : (⟨3, ![8, 512, 512]⟩ : Shape).Idx → BitVec 32) : EReal :=
  ∑ n : Fin 8, ∑ y : Fin 512, ∑ x : Fin 512, pixValid (Lb (ix3 n y x))

/-- The mean loss over the pixels that are not ignored. -/
def meanLoss (X : (⟨4, ![8, 19, 512, 512]⟩ : Shape).Idx → EReal) (Lb : (⟨3, ![8, 512, 512]⟩ : Shape).Idx → BitVec 32) : EReal :=
  Ideal.div (lossSum X Lb) (validSum Lb)

/-- Every logit is a real number. -/
def FiniteLogits (X : (⟨4, ![8, 19, 512, 512]⟩ : Shape).Idx → EReal) : Prop := ∀ i, ∃ r : ℝ, X i = (r : EReal)

/-- Every label word is the ignore word 255 or a class number below 19. -/
def LabelsInRange (Lb : (⟨3, ![8, 512, 512]⟩ : Shape).Idx → BitVec 32) : Prop := ∀ j, Lb j = 255#32 ∨ (Lb j).toNat < 19

end Cert.SmoothCE

end
-- ==== Proof.PixelAlgebra.lean ====
/-
  One pixel, as the kernel computes it, is the pixel loss of the specification.

  The kernel never forms the log-probabilities: with `lse = M + log (∑ exp (v c - M))` it takes
  `(∑ c, [c = label] · v c) - lse` for the target's log-probability and `(∑ c, v c) - 19 · lse` for the sum of all
  of them, and negates by subtracting from zero. On real logits and a label below 19 these are the same numbers.
-/
import proofs.«422704_j68393059221597_2_alg».proof.Proof.Spec

noncomputable section

namespace Cert.SmoothCE

open Idealize.ShloMosaic

/-- The kernel's running maximum starts from the word of `-∞`. -/
def mxK (v : Fin 19 → EReal) : EReal := (Finset.univ : Finset (Fin 19)).fold max (Ideal.ofBits .f32 0xFF800000#32) v

/-- The kernel's log-sum-exp. -/
def lseK (v : Fin 19 → EReal) : EReal := mxK v + Ideal.log (∑ c : Fin 19, Ideal.exp (v c - mxK v))

/-- The label the kernel selects with: the ignore word replaced by class 0. -/
def labK (l : BitVec 32) : BitVec 32 := if l = 255#32 then 0#32 else l

/-- The kernel's pixel loss before the ignore mask. -/
def rawK (v : Fin 19 → EReal) (l : BitVec 32) : EReal :=
  0 - (wPos * ((∑ c : Fin 19, if BitVec.ofNat 32 c.val = labK l then v c else 0) - lseK v)
        + wNeg * ((∑ c : Fin 19, v c) - Ideal.ofBits .f32 0x41980000#32 * lseK v))

/-- The kernel's pixel loss. -/
def lossK (v : Fin 19 → EReal) (l : BitVec 32) : EReal := if l = 255#32 then 0 else rawK v l

/-- The word `0xFF800000` denotes `-∞`. -/
private theorem ofBits_negInf : Ideal.ofBits .f32 0xFF800000#32 = ⊥ := by
  simp [Ideal.ofBits, Ideal.ieee]

/-- The word `0x41980000` denotes `19`. -/
private theorem ofBits_nineteen : Ideal.ofBits .f32 0x41980000#32 = ((19 : ℝ) : EReal) := by
  simp [Ideal.ofBits, Ideal.ieee, -EReal.coe_mul]; norm_num

/-- The kernel's running maximum is the specification's. -/
private theorem mxK_eq_mx (v : Fin 19 → EReal) : mxK v = mx v := by
  unfold mxK mx
  rw [ofBits_negInf]

/-- The coercion of reals commutes with `max`. -/
private theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The fold of `max` from `⊥` over a nonempty set of reals is a real. -/
private theorem fold_max_real (r : Fin 19 → ℝ) (s : Finset (Fin 19)) (hs : s.Nonempty) :
    ∃ M : ℝ, s.fold max ⊥ (fun c => ((r c : ℝ) : EReal)) = (M : EReal) := by
  induction s using Finset.induction_on with
  | empty => exact absurd hs (by simp)
  | insert a s ha ih =>
    rw [Finset.fold_insert ha]
    rcases s.eq_empty_or_nonempty with rfl | hne
    · exact ⟨r a, by simp⟩
    · obtain ⟨M, hM⟩ := ih hne
      exact ⟨max (r a) M, by rw [hM, coe_max_real]⟩

/-- The largest of nineteen real logits is a real. -/
private theorem mx_real (r : Fin 19 → ℝ) : ∃ M : ℝ, mx (fun c => ((r c : ℝ) : EReal)) = (M : EReal) :=
  fold_max_real r Finset.univ ⟨0, Finset.mem_univ _⟩

/-- A finite sum of coerced reals is the coercion of the sum. -/
private theorem coe_sum_real (s : Finset (Fin 19)) (f : Fin 19 → ℝ) :
    (∑ c ∈ s, ((f c : ℝ) : EReal)) = ((∑ c ∈ s, f c : ℝ) : EReal) := by
  induction s using Finset.induction_on with
  | empty => simp
  | insert a s ha ih => rw [Finset.sum_insert ha, Finset.sum_insert ha, ih, EReal.coe_add]

/-- The sum of the shifted exponentials is a positive real, so its log is the real log. -/
private theorem log_sum_exp_real (r : Fin 19 → ℝ) (M : ℝ) :
    Ideal.log (∑ c : Fin 19, Ideal.exp (((r c : ℝ) : EReal) - (M : EReal)))
      = ((Real.log (∑ c : Fin 19, Real.exp (r c - M)) : ℝ) : EReal) := by
  have h1 : ∀ c : Fin 19, Ideal.exp (((r c : ℝ) : EReal) - (M : EReal)) = ((Real.exp (r c - M) : ℝ) : EReal) := by
    intro c
    rw [← EReal.coe_sub, Ideal.exp_coe]
  simp only [h1]
  rw [coe_sum_real, Ideal.log_coe]
  have hS : 0 < ∑ c : Fin 19, Real.exp (r c - M) :=
    Finset.sum_pos (fun c _ => Real.exp_pos _) ⟨0, Finset.mem_univ _⟩
  rw [if_neg (not_le.mpr hS)]

/-- The one-hot sum picks the logit of the labelled class. -/
private theorem onehot_sum (v : Fin 19 → EReal) (l : BitVec 32) (h : l.toNat < 19) :
    (∑ c : Fin 19, if BitVec.ofNat 32 c.val = l then v c else 0) = v (cls l) := by
  have hiff : ∀ c : Fin 19, BitVec.ofNat 32 c.val = l ↔ c = cls l := by
    intro c
    have hc : c.val < 2 ^ 32 := lt_trans c.isLt (by norm_num)
    constructor
    · intro hcl
      apply Fin.ext
      have := congrArg BitVec.toNat hcl
      rw [BitVec.toNat_ofNat, Nat.mod_eq_of_lt hc] at this
      show c.val = l.toNat % 19
      rw [Nat.mod_eq_of_lt h]; exact this
    · intro hcl
      subst hcl
      apply BitVec.eq_of_toNat_eq
      show (BitVec.ofNat 32 (l.toNat % 19)).toNat = l.toNat
      rw [BitVec.toNat_ofNat, Nat.mod_eq_of_lt h, Nat.mod_eq_of_lt l.isLt]
  rw [Finset.sum_eq_single (cls l)]
  · rw [if_pos ((hiff _).mpr rfl)]
  · intro c _ hc
    rw [if_neg (fun hcl => hc ((hiff c).mp hcl))]
  · intro hn
    exact absurd (Finset.mem_univ _) hn

/-- The real identity behind the sum of all log-probabilities. -/
private theorem sum_shift_real (r : Fin 19 → ℝ) (M L : ℝ) :
    (∑ c : Fin 19, ((r c - M) - L)) = (∑ c : Fin 19, r c) - 19 * (M + L) := by
  rw [Finset.sum_sub_distrib, Finset.sum_sub_distrib, Finset.sum_const, Finset.sum_const, Finset.card_univ,
    Fintype.card_fin]
  simp only [nsmul_eq_mul]
  push_cast
  ring

/-- The kernel's raw loss on real logits and a label below 19. -/
private theorem rawK_real (r : Fin 19 → ℝ) (l : BitVec 32) (h255 : ¬ l = 255#32) (hlt : l.toNat < 19) :
    rawK (fun c => ((r c : ℝ) : EReal)) l
      = -(wPos * logp (fun c => ((r c : ℝ) : EReal)) (cls l)
          + wNeg * ∑ c : Fin 19, logp (fun c => ((r c : ℝ) : EReal)) c) := by
  obtain ⟨M, hM⟩ := mx_real r
  have hlog := log_sum_exp_real r M
  set L : ℝ := Real.log (∑ c : Fin 19, Real.exp (r c - M)) with hL
  have hlogSum : logSum (fun c => ((r c : ℝ) : EReal)) = (L : EReal) := by
    unfold logSum
    rw [hM]
    exact hlog
  have hlse : lseK (fun c => ((r c : ℝ) : EReal)) = ((M + L : ℝ) : EReal) := by
    unfold lseK
    rw [mxK_eq_mx, hM, EReal.coe_add]
    exact congrArg (fun x => (M : EReal) + x) hlog
  have hlogp : ∀ c : Fin 19, logp (fun c => ((r c : ℝ) : EReal)) c = (((r c - M) - L : ℝ) : EReal) := by
    intro c
    unfold logp
    rw [hlogSum, hM, EReal.coe_sub, EReal.coe_sub]
  unfold rawK
  rw [show labK l = l from if_neg h255, onehot_sum _ l hlt, hlse, ofBits_nineteen]
  simp only [hlogp]
  rw [coe_sum_real, coe_sum_real, sum_shift_real, zero_sub]
  rw [← EReal.coe_sub, ← EReal.coe_mul, ← EReal.coe_sub]
  have hA : r (cls l) - (M + L) = r (cls l) - M - L := by ring
  rw [hA]

/-- On real logits and a label in range the kernel's pixel loss is the specification's. -/
theorem lossK_eq_pixLoss (v : Fin 19 → EReal) (l : BitVec 32) (hv : ∀ c, ∃ r : ℝ, v c = (r : EReal))
    (hl : l = 255#32 ∨ l.toNat < 19) : lossK v l = pixLoss v l := by
  by_cases h255 : l = 255#32
  · unfold lossK pixLoss
    rw [if_pos h255, if_pos h255]
  · have hlt : l.toNat < 19 := hl.resolve_left h255
    choose r hr using hv
    obtain rfl : v = fun c => ((r c : ℝ) : EReal) := funext hr
    unfold lossK pixLoss
    rw [if_neg h255, if_neg h255]
    exact rawK_real r l h255 hlt

end Cert.SmoothCE

end
-- ==== Proof.KernelPayload.lean ====
/-
  The kernel body's pure terms, read at an index over the extended reals.

  A tile is 128 rows of 512 pixels; pixel `(y, q)` of the tile has the 19 logits `x0 (0, c, y, q)` and the label word
  `x1 (0, y, q)`. The body's loss row gains, in lane `q`, the sum over the tile's rows `y` of the pixel losses, and
  its count row the number of pixels of that column that are not ignored; the value written to an output is the sum
  of a row over its 512 lanes.
-/
import proofs.«422704_j68393059221597_2_alg».proof.Proof.Gen.KernelIdeal.Skeleton
import proofs.«422704_j68393059221597_2_alg».proof.Proof.PixelAlgebra
import Idealize.ShloMosaic.Lib.Pipeline.Value
import Idealize.ShloMosaic.Lib.ValueLayout
import Idealize.ShloMosaic.Lib.ValueIdx
import Idealize.ShloMosaic.Lib.StableHlo.Predicate
import Idealize.ShloMosaic.PureOps.Ideal.Laws

noncomputable section

namespace Cert.SmoothCE.Kernel

open Idealize.ShloMosaic Idealize.ShloMosaic.ValueIdx
open Cert.KernelIdeal Cert.KernelIdeal.Gen Cert.SmoothCE

/-- The logits of pixel `(y, q)` of a tile, by class. -/
abbrev tilePix (x0 : FVec Ideal S1x19x128x512 .f32) (y : Fin 128) (q : Fin 512) : Fin 19 → EReal :=
  fun c => x0 (ix4 (0 : Fin 1) c y q)

/-- The label word of pixel `(y, q)` of a tile. -/
abbrev tileLab (x1 : IVec S1x128x512 32) (y : Fin 128) (q : Fin 512) : BitVec 32 := x1 (ix3 (0 : Fin 1) y q)

/-- A select on a word comparison for equality is an `if` on the equation. -/
theorem select_cmpi_eq {α : Type} {w : Nat} (a b : BitVec w) (u v : α) :
    Scalar.select (IntOp.cmpi .eq a b) u v = if a = b then u else v := by
  by_cases h : a = b
  · rw [if_pos h, StableHlo.Predicate.cmpi_eq_iff.mpr h]; rfl
  · rw [if_neg h]
    have h1 : ¬ IntOp.cmpi .eq a b = 1#1 := fun h' => h (StableHlo.Predicate.cmpi_eq_iff.mp h')
    exact if_neg h1

/-! ## The tile without its unit axis -/

theorem pay7_at (x0 : FVec Ideal S1x19x128x512 .f32) (c : Fin 19) (y : Fin 128) (q : Fin 512) :
    k0_pay7 (F := Ideal) x0 (ix3 c y q) = x0 (ix4 (0 : Fin 1) c y q) := by
  unfold k0_pay7
  exact shapeCast_1abc_abc_apply x0 _ c y q

theorem pay8_at (x1 : IVec S1x128x512 32) (y : Fin 128) (q : Fin 512) :
    k0_pay8 (F := Ideal) x1 (ix2 y q) = x1 (ix3 (0 : Fin 1) y q) := by
  unfold k0_pay8
  exact shapeCast_1ab_ab_apply x1 _ y q

/-- The ignore mask: the label word compared with 255. -/
theorem pay9_at (x1 : IVec S1x128x512 32) (y : Fin 128) (q : Fin 512) :
    k0_pay9 (F := Ideal) x1 (ix2 y q) = IntOp.cmpi .eq (tileLab x1 y q) 255#32 := by
  unfold k0_pay9
  show IntOp.cmpi .eq (k0_pay8 (F := Ideal) x1 (ix2 y q)) 255#32 = _
  rw [pay8_at]

/-- The index a reduction over the class axis inserts. -/
theorem lift_class (y : Fin 128) (q : Fin 512) (c : Fin 19) :
    reduces_S19x128x512_S128x512.lift (ix2 y q) c = ix3 c y q := by
  funext a
  match a with
  | ⟨0, _⟩ => rfl
  | ⟨1, _⟩ => rfl
  | ⟨2, _⟩ => rfl

/-! ## The log-sum-exp of a pixel -/

/-- The broadcast of a `[1, 128, 512]` array over the class axis reads the array at `(0, y, q)`. -/
theorem bcast_class {α : Type} (v : S1x128x512.Idx → α) (c : Fin 19) (y : Fin 128) (q : Fin 512) :
    broadcastTo S19x128x512 v broadcasts_S1x128x512_S19x128x512 (ix3 c y q) = v (ix3 (0 : Fin 1) y q) :=
  broadcastTo_apply v broadcasts_S1x128x512_S19x128x512 (ix3 c y q) (ix3 (0 : Fin 1) y q) (fun a => by
    match a with
    | ⟨0, _⟩ => rfl
    | ⟨1, _⟩ => rfl
    | ⟨2, _⟩ => rfl)

/-- A maximum over the class axis, read at a pixel. -/
theorem max_class (z : FVec Ideal S19x128x512 .f32) (y : Fin 128) (q : Fin 512) :
    multiReduction .maximumf [0] S128x512 z 0xFF800000#32 reduces_S19x128x512_S128x512 (.inl rfl) rfl (ix2 y q)
      = mxK (fun c => z (ix3 c y q)) := by
  refine (Ideal.multiReduction_maximumf_single z 0xFF800000#32 reduces_S19x128x512_S128x512 (.inl rfl) rfl (ix2 y q)).trans ?_
  have hf : (z ∘ reduces_S19x128x512_S128x512.lift (ix2 y q)) = fun c => z (ix3 c y q) :=
    funext fun c => congrArg z (lift_class y q c)
  rw [hf]
  rfl

/-- A sum over the class axis, read at a pixel. -/
theorem sum_class (z : FVec Ideal S19x128x512 .f32) (y : Fin 128) (q : Fin 512) :
    multiReduction .add [0] S128x512 z 0x00000000#32 reduces_S19x128x512_S128x512 (.inl rfl) rfl (ix2 y q)
      = ∑ c : Fin 19, z (ix3 c y q) := by
  refine (Ideal.multiReduction_add_single z 0x00000000#32 reduces_S19x128x512_S128x512 (.inl rfl) rfl (ix2 y q)).trans ?_
  exact Finset.sum_congr rfl fun c _ => congrArg z (lift_class y q c)

/-- The shape of the log-sum-exp term, over a tile `z` without its unit axis and ANY array `M` in the maximum's place. -/
theorem lse_shape (M : FVec Ideal S128x512 .f32) (z : FVec Ideal S19x128x512 .f32) (y : Fin 128) (q : Fin 512) :
    (shapeCast S128x512
      (addf (shapeCast S1x128x512 M shapeCasts_S128x512_S1x128x512)
        (log (shapeCast S1x128x512
          (multiReduction .add [0] S128x512
            (exp (subf z (broadcastTo S19x128x512 (shapeCast S1x128x512 M shapeCasts_S128x512_S1x128x512) broadcasts_S1x128x512_S19x128x512)))
            0x00000000#32 reduces_S19x128x512_S128x512 (.inl rfl) rfl) shapeCasts_S128x512_S1x128x512)))
      shapeCasts_S1x128x512_S128x512 : FVec Ideal S128x512 .f32) (ix2 y q)
      = M (ix2 y q) + Ideal.log (∑ c : Fin 19, Ideal.exp (z (ix3 c y q) - M (ix2 y q))) := by
  refine (shapeCast_1ab_ab_apply (addf (shapeCast S1x128x512 M shapeCasts_S128x512_S1x128x512) _) shapeCasts_S1x128x512_S128x512 y q).trans ?_
  show (shapeCast S1x128x512 M shapeCasts_S128x512_S1x128x512 (ix3 (0 : Fin 1) y q) : EReal)
      + Ideal.log (shapeCast S1x128x512 _ shapeCasts_S128x512_S1x128x512 (ix3 (0 : Fin 1) y q)) = _
  rw [shapeCast_ab_1ab_apply M shapeCasts_S128x512_S1x128x512 (0 : Fin 1) y q]
  refine congrArg (fun s => M (ix2 y q) + Ideal.log s) ?_
  refine (shapeCast_ab_1ab_apply _ shapeCasts_S128x512_S1x128x512 (0 : Fin 1) y q).trans ?_
  refine (sum_class _ y q).trans (Finset.sum_congr rfl fun c _ => ?_)
  show Ideal.exp (z (ix3 c y q) - broadcastTo S19x128x512 (shapeCast S1x128x512 M shapeCasts_S128x512_S1x128x512) broadcasts_S1x128x512_S19x128x512 (ix3 c y q)) = _
  rw [bcast_class, shapeCast_ab_1ab_apply M shapeCasts_S128x512_S1x128x512 (0 : Fin 1) y q]

theorem pay10_at (x0 : FVec Ideal S1x19x128x512 .f32) (y : Fin 128) (q : Fin 512) :
    k0_pay10 (F := Ideal) x0 (ix2 y q) = lseK (tilePix x0 y q) := by
  unfold k0_pay10
  refine (lse_shape _ (k0_pay7 (F := Ideal) x0) y q).trans ?_
  rw [max_class]
  unfold lseK
  have hp : (fun c => k0_pay7 (F := Ideal) x0 (ix3 c y q)) = tilePix x0 y q := funext fun c => pay7_at x0 c y q
  rw [hp]
  refine congrArg (fun s => mxK (tilePix x0 y q) + Ideal.log s) (Finset.sum_congr rfl fun c _ => ?_)
  rw [pay7_at]

/-! ## The two weighted terms of a pixel -/

/-- The class numbers broadcast over the tile read the class. -/
theorem iota_class (c : Fin 19) (y : Fin 128) (q : Fin 512) :
    broadcastTo S19x128x512 (iota .tc S19x1x1 32 [0] iota_S19x1x1_d0_w32) broadcasts_S19x1x1_S19x128x512 (ix3 c y q)
      = BitVec.ofNat 32 c.val := by
  refine (broadcastTo_apply _ broadcasts_S19x1x1_S19x128x512 (ix3 c y q) (ix3 c (0 : Fin 1) (0 : Fin 1)) (fun a => by
    match a with
    | ⟨0, _⟩ => rfl
    | ⟨1, _⟩ => rfl
    | ⟨2, _⟩ => rfl)).trans ?_
  exact iota_single_apply .tc S19x1x1 32 0 iota_S19x1x1_d0_w32 (ix3 c (0 : Fin 1) (0 : Fin 1))

/-- The shape of the target term: the weight times (the logit selected by the label, minus the log-sum-exp). -/
theorem target_shape (z : FVec Ideal S19x128x512 .f32) (lab : IVec S128x512 32) (lse : FVec Ideal S128x512 .f32)
    (y : Fin 128) (q : Fin 512) :
    (mulf (broadcast S128x512 (Scalar.ofBits (F := Ideal) .f32 0x3F650D79#32))
      (subf (multiReduction .add [0] S128x512
          (select (cmpi .eq (broadcastTo S19x128x512 (iota .tc S19x1x1 32 [0] iota_S19x1x1_d0_w32) broadcasts_S19x1x1_S19x128x512)
              (broadcastTo S19x128x512 (shapeCast S1x128x512 lab shapeCasts_S128x512_S1x128x512) broadcasts_S1x128x512_S19x128x512))
            z (broadcast S19x128x512 (Scalar.ofBits (F := Ideal) .f32 0x00000000#32)))
          0x00000000#32 reduces_S19x128x512_S128x512 (.inl rfl) rfl) lse) : FVec Ideal S128x512 .f32) (ix2 y q)
      = wPos * ((∑ c : Fin 19, if BitVec.ofNat 32 c.val = lab (ix2 y q) then z (ix3 c y q) else 0) - lse (ix2 y q)) := by
  show (Ideal.ofBits .f32 0x3F650D79#32 : EReal) * (multiReduction .add [0] S128x512 _ 0x00000000#32 reduces_S19x128x512_S128x512 (.inl rfl) rfl (ix2 y q) - lse (ix2 y q)) = _
  rw [sum_class]
  refine congrArg (fun s => wPos * (s - lse (ix2 y q))) (Finset.sum_congr rfl fun c _ => ?_)
  show Scalar.select (IntOp.cmpi .eq (broadcastTo S19x128x512 (iota .tc S19x1x1 32 [0] iota_S19x1x1_d0_w32) broadcasts_S19x1x1_S19x128x512 (ix3 c y q))
      (broadcastTo S19x128x512 (shapeCast S1x128x512 lab shapeCasts_S128x512_S1x128x512) broadcasts_S1x128x512_S19x128x512 (ix3 c y q)))
      (z (ix3 c y q)) (Ideal.ofBits .f32 0x00000000#32 : EReal) = _
  rw [iota_class, bcast_class, shapeCast_ab_1ab_apply lab shapeCasts_S128x512_S1x128x512 (0 : Fin 1) y q, select_cmpi_eq, Ideal.ofBits_zero_f32]

theorem pay11_at (x0 : FVec Ideal S1x19x128x512 .f32) (x1 : IVec S1x128x512 32) (y : Fin 128) (q : Fin 512) :
    k0_pay11 (F := Ideal) x0 x1 (ix2 y q)
      = wPos * ((∑ c : Fin 19, if BitVec.ofNat 32 c.val = labK (tileLab x1 y q) then tilePix x0 y q c else 0) - lseK (tilePix x0 y q)) := by
  unfold k0_pay11
  refine (target_shape (k0_pay7 (F := Ideal) x0) _ (k0_pay10 (F := Ideal) x0) y q).trans ?_
  rw [pay10_at]
  have hlab : (select (k0_pay9 (F := Ideal) x1) (broadcast S128x512 0#32) (k0_pay8 (F := Ideal) x1) : IVec S128x512 32) (ix2 y q) = labK (tileLab x1 y q) := by
    show Scalar.select (k0_pay9 (F := Ideal) x1 (ix2 y q)) 0#32 (k0_pay8 (F := Ideal) x1 (ix2 y q)) = _
    rw [pay9_at, pay8_at, select_cmpi_eq]
    rfl
  rw [hlab]
  refine congrArg (fun s => wPos * (s - lseK (tilePix x0 y q))) (Finset.sum_congr rfl fun c _ => ?_)
  rw [pay7_at]

/-- The shape of the smoothing term: the weight times (the sum of the logits minus 19 log-sum-exps). -/
theorem smooth_shape (z : FVec Ideal S19x128x512 .f32) (lse : FVec Ideal S128x512 .f32) (y : Fin 128) (q : Fin 512) :
    (mulf (broadcast S128x512 (Scalar.ofBits (F := Ideal) .f32 0x3BAC7692#32))
      (subf (multiReduction .add [0] S128x512 z 0x00000000#32 reduces_S19x128x512_S128x512 (.inl rfl) rfl)
        (mulf (broadcast S128x512 (Scalar.ofBits (F := Ideal) .f32 0x41980000#32)) lse)) : FVec Ideal S128x512 .f32) (ix2 y q)
      = wNeg * ((∑ c : Fin 19, z (ix3 c y q)) - Ideal.ofBits .f32 0x41980000#32 * lse (ix2 y q)) := by
  show (Ideal.ofBits .f32 0x3BAC7692#32 : EReal) * (multiReduction .add [0] S128x512 z 0x00000000#32 reduces_S19x128x512_S128x512 (.inl rfl) rfl (ix2 y q)
      - (Ideal.ofBits .f32 0x41980000#32 : EReal) * lse (ix2 y q)) = _
  rw [sum_class]
  rfl

theorem pay12_at (x0 : FVec Ideal S1x19x128x512 .f32) (y : Fin 128) (q : Fin 512) :
    k0_pay12 (F := Ideal) x0 (ix2 y q)
      = wNeg * ((∑ c : Fin 19, tilePix x0 y q c) - Ideal.ofBits .f32 0x41980000#32 * lseK (tilePix x0 y q)) := by
  unfold k0_pay12
  refine (smooth_shape (k0_pay7 (F := Ideal) x0) (k0_pay10 (F := Ideal) x0) y q).trans ?_
  rw [pay10_at]
  refine congrArg (fun s => wNeg * (s - Ideal.ofBits .f32 0x41980000#32 * lseK (tilePix x0 y q))) (Finset.sum_congr rfl fun c _ => ?_)
  rw [pay7_at]

/-! ## The two running rows -/

/-- The index a reduction over a tile's rows inserts. -/
theorem lift_row (q : Fin 512) (y : Fin 128) : reduces_S128x512_S512.lift (ix1 q) y = ix2 y q := by
  funext a
  match a with
  | ⟨0, _⟩ => rfl
  | ⟨1, _⟩ => rfl

/-- A sum over the rows of a tile, read at a lane. -/
theorem sum_rows (z : FVec Ideal S128x512 .f32) (q : Fin 512) :
    multiReduction .add [0] S512 z 0x00000000#32 reduces_S128x512_S512 (.inl rfl) rfl (ix1 q) = ∑ y : Fin 128, z (ix2 y q) := by
  refine (Ideal.multiReduction_add_single z 0x00000000#32 reduces_S128x512_S512 (.inl rfl) rfl (ix1 q)).trans ?_
  exact Finset.sum_congr rfl fun y _ => congrArg z (lift_row q y)

/-- The shape of a running row's update: the row plus the column sums of the tile's masked values. -/
theorem row_shape (g : FVec Ideal S128x512 .f32) (r : FVec Ideal S1x512 .f32) (q : Fin 512) :
    (shapeCast S1x512 (addf r (shapeCast S1x512 (multiReduction .add [0] S512 g 0x00000000#32 reduces_S128x512_S512 (.inl rfl) rfl) shapeCasts_S512_S1x512))
      shapeCasts_S1x512_S1x512 : FVec Ideal S1x512 .f32) (ix2 (0 : Fin 1) q)
      = r (ix2 (0 : Fin 1) q) + ∑ y : Fin 128, g (ix2 y q) := by
  rw [shapeCast_self]
  show r (ix2 (0 : Fin 1) q) + shapeCast S1x512 _ shapeCasts_S512_S1x512 (ix2 (0 : Fin 1) q) = _
  rw [shapeCast_a_1a_apply _ shapeCasts_S512_S1x512 (0 : Fin 1) q, sum_rows]

/-- The word of 1.0 is the extended real 1. -/
theorem one_word : (Ideal.ofBits .f32 0x3F800000#32 : EReal) = 1 := by
  simp [Ideal.ofBits, Ideal.ieee, -EReal.coe_mul]; norm_num

/-- The loss row after a tile: lane `q` gains the sum over the tile's rows of the pixel losses. -/
theorem lossRow_at (x0 : FVec Ideal S1x19x128x512 .f32) (x1 : IVec S1x128x512 32) (r : FVec Ideal S1x512 .f32) (q : Fin 512) :
    k0_pay1 (F := Ideal) (k0_pay9 (F := Ideal) x1) (k0_pay11 (F := Ideal) x0 x1) (k0_pay12 (F := Ideal) x0) r (ix2 (0 : Fin 1) q)
      = r (ix2 (0 : Fin 1) q) + ∑ y : Fin 128, lossK (tilePix x0 y q) (tileLab x1 y q) := by
  unfold k0_pay1
  refine (row_shape _ r q).trans ?_
  refine congrArg (fun s => r (ix2 (0 : Fin 1) q) + s) (Finset.sum_congr rfl fun y _ => ?_)
  show Scalar.select (k0_pay9 (F := Ideal) x1 (ix2 y q)) (Ideal.ofBits .f32 0x00000000#32 : EReal)
      ((Ideal.ofBits .f32 0x00000000#32 : EReal) - (k0_pay11 (F := Ideal) x0 x1 (ix2 y q) + k0_pay12 (F := Ideal) x0 (ix2 y q))) = _
  rw [pay9_at, pay11_at, pay12_at, select_cmpi_eq, Ideal.ofBits_zero_f32]
  rfl

/-- The count row after a tile: lane `q` gains the number of the tile's pixels in that column that are not ignored. -/
theorem countRow_at (x1 : IVec S1x128x512 32) (r : FVec Ideal S1x512 .f32) (q : Fin 512) :
    k0_pay2 (F := Ideal) (k0_pay9 (F := Ideal) x1) r (ix2 (0 : Fin 1) q)
      = r (ix2 (0 : Fin 1) q) + ∑ y : Fin 128, pixValid (tileLab x1 y q) := by
  unfold k0_pay2
  refine (row_shape _ r q).trans ?_
  refine congrArg (fun s => r (ix2 (0 : Fin 1) q) + s) (Finset.sum_congr rfl fun y _ => ?_)
  show Scalar.select (k0_pay9 (F := Ideal) x1 (ix2 y q)) (Ideal.ofBits .f32 0x00000000#32 : EReal) (Ideal.ofBits .f32 0x3F800000#32 : EReal) = _
  rw [pay9_at, select_cmpi_eq, Ideal.ofBits_zero_f32, one_word]
  rfl

/-! ## The lane sum written to an output, and the zero rows -/

/-- The index a reduction over the lanes inserts. -/
theorem lift_lane (q : Fin 512) : reduces_S1x512_S1.lift (ix1 (0 : Fin 1)) q = ix2 (0 : Fin 1) q := by
  funext a
  match a with
  | ⟨0, _⟩ => rfl
  | ⟨1, _⟩ => rfl

/-- The shape of an output's value: every entry is the sum of the row over its 512 lanes. -/
theorem lane_shape (v : FVec Ideal S1x512 .f32) (j : S1x1x128.Idx) :
    (broadcastTo S1x1x128
      (shapeCast S1x1x1 (shapeCast S1x1x1 (shapeCast S1x1 (multiReduction .add [1] S1 v 0x00000000#32 reduces_S1x512_S1 (.inl rfl) rfl) shapeCasts_S1_S1x1) shapeCasts_S1x1_S1x1x1) shapeCasts_S1x1x1_S1x1x1)
      broadcasts_S1x1x1_S1x1x128 : FVec Ideal S1x1x128 .f32) j
      = ∑ q : Fin 512, v (ix2 (0 : Fin 1) q) := by
  refine (broadcastTo_apply _ broadcasts_S1x1x1_S1x1x128 j (ix3 (0 : Fin 1) (0 : Fin 1) (0 : Fin 1)) (fun a => by
    match a with
    | ⟨0, _⟩ => rfl
    | ⟨1, _⟩ => rfl
    | ⟨2, _⟩ => rfl)).trans ?_
  rw [shapeCast_self]
  refine (shapeCast_addUnit_apply ![1, 1] _ shapeCasts_S1x1_S1x1x1 _).trans ?_
  refine (shapeCast_addUnit_apply ![1] _ shapeCasts_S1_S1x1 _).trans ?_
  have hj : (fun a : Fin 1 => (fun a : Fin 2 => (ix3 (0 : Fin 1) (0 : Fin 1) (0 : Fin 1) : S1x1x1.Idx) a.succ) a.succ) = (ix1 (0 : Fin 1) : S1.Idx) := by
    funext a
    match a with
    | ⟨0, _⟩ => rfl
  rw [hj]
  refine (Ideal.multiReduction_add_single v 0x00000000#32 reduces_S1x512_S1 (.inl rfl) rfl (ix1 (0 : Fin 1))).trans ?_
  exact Finset.sum_congr rfl fun q _ => congrArg v (lift_lane q)

theorem pay3_at (v : FVec Ideal S1x512 .f32) (j : S1x1x128.Idx) :
    k0_pay3 (F := Ideal) v j = ∑ q : Fin 512, v (ix2 (0 : Fin 1) q) := by
  unfold k0_pay3
  exact lane_shape v j

theorem pay4_at (v : FVec Ideal S1x512 .f32) (j : S1x1x128.Idx) :
    k0_pay4 (F := Ideal) v j = ∑ q : Fin 512, v (ix2 (0 : Fin 1) q) := by
  unfold k0_pay4
  exact lane_shape v j

/-- The row stored at the first tile of an image is zero. -/
theorem pay5_at (i : S1x512.Idx) : k0_pay5 (F := Ideal) i = 0 := by
  unfold k0_pay5
  rw [shapeCast_self]
  exact Ideal.ofBits_zero_f32

theorem pay6_at (i : S1x512.Idx) : k0_pay6 (F := Ideal) i = 0 := by
  unfold k0_pay6
  rw [shapeCast_self]
  exact Ideal.ofBits_zero_f32

end Cert.SmoothCE.Kernel

end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.Sums.lean ====
/-
  Re-indexing finite sums: a sum over the indices of a rank-3 array as three nested sums over its coordinates, and a
  sum over 512 rows taken as 4 tiles of 128 rows.
-/
import proofs.«422704_j68393059221597_2_alg».proof.Proof.LibSums
import Idealize.ShloMosaic.Lib.ValueIdx

noncomputable section

namespace Cert.SmoothCE

open Idealize.ShloMosaic Idealize.ShloMosaic.ValueIdx

/-- A rank-3 index set is the product of its three coordinate ranges. -/
private def idxEquiv3 {a b c : ℕ} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- A sum over the indices of an `[a, b, c]` array is the nested sum over its three coordinates. -/
theorem sum_idx3 {M : Type*} [AddCommMonoid M] {a b c : ℕ} (f : (⟨3, ![a, b, c]⟩ : Shape).Idx → M) :
    ∑ i, f i = ∑ n : Fin a, ∑ y : Fin b, ∑ x : Fin c, f (ix3 n y x) := by
  rw [← Equiv.sum_comp (idxEquiv3 (a := a) (b := b) (c := c)).symm f, Fintype.sum_prod_type]
  refine Finset.sum_congr rfl fun n _ => ?_
  rw [Fintype.sum_prod_type]
  rfl

/-- Row `128 * h + y` of a 512-row image, for tile `h` and row `y` of the tile. -/
def tileRow (h : Fin 4) (y : Fin 128) : Fin 512 := ⟨h.val * 128 + y.val, by have := h.isLt; have := y.isLt; omega⟩

/-- A sum over the 512 rows, taken as 4 tiles of 128 rows. -/
private theorem sum_tileRow {M : Type*} [AddCommMonoid M] (f : Fin 512 → M) :
    ∑ h : Fin 4, ∑ y : Fin 128, f (tileRow h y) = ∑ k : Fin 512, f k :=
  Cert.LibSums.sum_blocks 4 128 (fun k : Fin (4 * 128) => f ⟨k.val, k.isLt⟩)

/-- Column sums taken tile by tile and then over the lanes are the sum over all rows and lanes. -/
theorem sum_tiles {M : Type*} [AddCommMonoid M] (g : Fin 512 → Fin 512 → M) :
    ∑ q : Fin 512, ∑ h : Fin 4, ∑ y : Fin 128, g (tileRow h y) q = ∑ y : Fin 512, ∑ q : Fin 512, g y q := by
  calc ∑ q : Fin 512, ∑ h : Fin 4, ∑ y : Fin 128, g (tileRow h y) q
      = ∑ q : Fin 512, ∑ k : Fin 512, g k q :=
        Finset.sum_congr rfl fun q _ => sum_tileRow (fun k => g k q)
    _ = ∑ y : Fin 512, ∑ q : Fin 512, g y q := Finset.sum_comm

end Cert.SmoothCE

end
-- ==== Proof.BlockRead.lean ====
/-
  Which pixels a grid point's tile holds.

  The grid has 8 x 4 points: point `t` works on image `t / 4` and on its rows `128 * (t % 4) … 128 * (t % 4) + 127`.
  So the logits block at `(0, c, y, q)` is the logits array at `(t / 4, c, 128 * (t % 4) + y, q)`, and the label block at
  `(0, y, q)` the label array at `(t / 4, 128 * (t % 4) + y, q)`.
-/
import proofs.«422704_j68393059221597_2_alg».proof.Proof.Gen.KernelIdeal.Frame
import proofs.«422704_j68393059221597_2_alg».proof.Proof.Sums
import Idealize.ShloMosaic.Lib.Pipeline.Value
import Idealize.ShloMosaic.Lib.ValueIdx

set_option maxRecDepth 16384

noncomputable section

namespace Cert.SmoothCE.Kernel

open Idealize.ShloMosaic Idealize.ShloMosaic.TcCoe Idealize.ShloMosaic.ValueIdx Idealize.SL.Sem
open Cert.KernelIdeal Cert.KernelIdeal.Gen Cert.SmoothCE

variable {F : FTy → Type} [FloatOps F]
variable (m : (ℓ : Loc nD τ sig) → Buf (Elt F) ℓ)

/-- The image a grid point works on. -/
def imgOf (t : Fin cfg0.N) : Fin 8 := ⟨t.val / 4, by have := t.isLt; have h : cfg0.N = 32 := N_0; omega⟩

/-- The row-tile of that image a grid point works on. -/
def tileOf (t : Fin cfg0.N) : Fin 4 := ⟨t.val % 4, Nat.mod_lt _ (by decide)⟩

/-- Where window 0 (the logits) sits at each grid point: image `t / 4`, all classes, row-tile `t % 4`, all lanes. -/
private theorem idx0 : ∀ t : Fin cfg0.N, win0_0.index t (0 : Fin 4) = t.val / 4 ∧ win0_0.index t (1 : Fin 4) = 0
    ∧ win0_0.index t (2 : Fin 4) = t.val % 4 ∧ win0_0.index t (3 : Fin 4) = 0 :=
  (by decide +kernel : ∀ t : Fin grid0.N, _)

/-- Where window 1 (the labels) sits at each grid point: image `t / 4`, row-tile `t % 4`, all lanes. -/
private theorem idx1 : ∀ t : Fin cfg0.N, win0_1.index t (0 : Fin 3) = t.val / 4 ∧ win0_1.index t (1 : Fin 3) = t.val % 4
    ∧ win0_1.index t (2 : Fin 3) = 0 :=
  (by decide +kernel : ∀ t : Fin grid0.N, _)

/-- The logits block of point `t`, read at class `cl`, row `y`, lane `q`. -/
theorem iblk0_at (c : Dev nD) (t : Fin cfg0.N) (cl : Fin 19) (y : Fin 128) (q : Fin 512) :
    (iblk m c 0 t : Vec F S1x19x128x512 .f32) (ix4 (0 : Fin 1) cl y q)
      = (m ((c : Thread nD τ).loc main_arg0) : Vec F S8x19x512x512 .f32) (ix4 (imgOf t) cl (tileRow (tileOf t) y) q) := by
  obtain ⟨e0, e1, e2, e3⟩ := idx0 t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * (0 : Fin 1).val = t.val / 4; rw [e0]; simp
  | ⟨1, _⟩ => show win0_0.index t (1 : Fin 4) * 19 + 1 * cl.val = cl.val; rw [e1]; omega
  | ⟨2, _⟩ => show win0_0.index t (2 : Fin 4) * 128 + 1 * y.val = t.val % 4 * 128 + y.val; rw [e2]; omega
  | ⟨3, _⟩ => show win0_0.index t (3 : Fin 4) * 512 + 1 * q.val = q.val; rw [e3]; omega

/-- The label block of point `t`, read at row `y`, lane `q`. -/
theorem iblk1_at (c : Dev nD) (t : Fin cfg0.N) (y : Fin 128) (q : Fin 512) :
    (iblk m c 1 t : Vec F S1x128x512 .i32) (ix3 (0 : Fin 1) y q)
      = (m ((c : Thread nD τ).loc main_arg1) : Vec F S8x512x512 .i32) (ix3 (imgOf t) (tileRow (tileOf t) y) q) := by
  obtain ⟨e0, e1, e2⟩ := idx1 t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * (0 : Fin 1).val = t.val / 4; rw [e0]; simp
  | ⟨1, _⟩ => show win0_1.index t (1 : Fin 3) * 128 + 1 * y.val = t.val % 4 * 128 + y.val; rw [e1]; omega
  | ⟨2, _⟩ => show win0_1.index t (2 : Fin 3) * 512 + 1 * q.val = q.val; rw [e2]; omega

end Cert.SmoothCE.Kernel

end
-- ==== Proof.KernelAccum.lean ====
/-
  The two running rows after each grid point, and what the last tile of an image writes out.

  Point `t` works on tile `t % 4` of image `t / 4`. After it, lane `q` of the loss row holds the column sums of
  the image's tiles `0 … t % 4` (the first tile starts from the stored zeros, each later tile adds to what the tile
  before left), and likewise the count row; at the image's last tile the outputs receive the sums of the two rows over
  the 512 lanes, which are the image's total loss and count.
-/
import proofs.«422704_j68393059221597_2_alg».proof.Proof.KernelPieces
import proofs.«422704_j68393059221597_2_alg».proof.Proof.KernelPayload
import proofs.«422704_j68393059221597_2_alg».proof.Proof.BlockRead

set_option maxRecDepth 16384

noncomputable section

namespace Cert.SmoothCE.Kernel

open Idealize.ShloMosaic Idealize.ShloMosaic.TcCoe Idealize.ShloMosaic.ValueIdx Idealize.SL.Sem
open Cert.KernelIdeal Cert.KernelIdeal.Gen Cert.SmoothCE

variable (m : (ℓ : Loc nD τ sig) → Buf (Elt Ideal) ℓ)

/-- The logits array and the label array of core `c`. -/
abbrev logitsOf (c : Dev nD) : FVec Ideal S8x19x512x512 .f32 := m ((c : Thread nD τ).loc main_arg0)
abbrev labelsOf (c : Dev nD) : IVec S8x512x512 32 := m ((c : Thread nD τ).loc main_arg1)

/-- The blocks of a point at their literal types. -/
abbrev xblk (c : Dev nD) (t : Fin cfg0.N) : FVec Ideal S1x19x128x512 .f32 := iblk m c 0 t
abbrev lblk (c : Dev nD) (t : Fin cfg0.N) : IVec S1x128x512 32 := iblk m c 1 t

/-- The column sums of tile `h` of image `n`: losses and counts. -/
def tileLoss (X : FVec Ideal S8x19x512x512 .f32) (Lb : IVec S8x512x512 32) (n : Fin 8) (h : Fin 4) (q : Fin 512) : EReal :=
  ∑ y : Fin 128, lossK (pixel X n (tileRow h y) q) (Lb (ix3 n (tileRow h y) q))
def tileCount (Lb : IVec S8x512x512 32) (n : Fin 8) (h : Fin 4) (q : Fin 512) : EReal :=
  ∑ y : Fin 128, pixValid (Lb (ix3 n (tileRow h y) q))

/-- The tile a number names. -/
def tileAt (k : ℕ) : Fin 4 := ⟨k % 4, Nat.mod_lt _ (by decide)⟩

theorem tileOf_eq (t : Fin cfg0.N) : tileOf t = tileAt t.val := rfl

/-- The column sums of a point's blocks are those of its tile of its image. -/
theorem blockLoss_eq (c : Dev nD) (t : Fin cfg0.N) (q : Fin 512) :
    ∑ y : Fin 128, lossK (tilePix (xblk m c t) y q) (tileLab (lblk m c t) y q)
      = tileLoss (logitsOf m c) (labelsOf m c) (imgOf t) (tileOf t) q := by
  unfold tileLoss
  refine Finset.sum_congr rfl fun y _ => ?_
  have hp : tilePix (xblk m c t) y q = pixel (logitsOf m c) (imgOf t) (tileRow (tileOf t) y) q :=
    funext fun cl => iblk0_at m c t cl y q
  have hl : tileLab (lblk m c t) y q = labelsOf m c (ix3 (imgOf t) (tileRow (tileOf t) y) q) := iblk1_at m c t y q
  rw [hp, hl]

theorem blockCount_eq (c : Dev nD) (t : Fin cfg0.N) (q : Fin 512) :
    ∑ y : Fin 128, pixValid (tileLab (lblk m c t) y q) = tileCount (labelsOf m c) (imgOf t) (tileOf t) q := by
  unfold tileCount
  refine Finset.sum_congr rfl fun y _ => ?_
  have hl : tileLab (lblk m c t) y q = labelsOf m c (ix3 (imgOf t) (tileRow (tileOf t) y) q) := iblk1_at m c t y q
  rw [hl]

set_option maxHeartbeats 3200000 in
/-- A point at an image's first tile: both rows are the tile's column sums added to zero. -/
theorem step_first (c : Dev nD) (t : Fin cfg0.N) (h0 : t.val % 4 = 0) (h1 : ¬t.val % 4 = 3) (q : Fin 512) :
    (outsAt0 (F := Ideal) m c t.val t.isLt).2.2.1 (ix2 (0 : Fin 1) q) = 0 + tileLoss (logitsOf m c) (labelsOf m c) (imgOf t) (tileOf t) q
    ∧ (outsAt0 (F := Ideal) m c t.val t.isLt).2.2.2 (ix2 (0 : Fin 1) q) = 0 + tileCount (labelsOf m c) (imgOf t) (tileOf t) q := by
  rw [outsAt0_A m c t h0 h1]
  refine ⟨?_, ?_⟩
  · refine (congrFun (lossA (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xblk m c t) (lblk m c t)) (ix2 (0 : Fin 1) q)).trans ?_
    refine (lossRow_at (xblk m c t) (lblk m c t) _ q).trans ?_
    rw [pay5_at, blockLoss_eq]
  · refine (congrFun (countA (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (xblk m c t) (lblk m c t)) (ix2 (0 : Fin 1) q)).trans ?_
    refine (countRow_at (lblk m c t) _ q).trans ?_
    rw [pay6_at, blockCount_eq]

set_option maxHeartbeats 3200000 in
/-- A point at a middle tile: both rows are the tile's column sums added to what the point before left. -/
theorem step_mid (c : Dev nD) (t : Fin cfg0.N) (h0 : ¬t.val % 4 = 0) (h1 : ¬t.val % 4 = 3) (q : Fin 512) :
    (outsAt0 (F := Ideal) m c t.val t.isLt).2.2.1 (ix2 (0 : Fin 1) q)
        = (outsAt0 (F := Ideal) m c (t.val - 1) (Nat.lt_of_le_of_lt (Nat.sub_le _ _) t.isLt)).2.2.1 (ix2 (0 : Fin 1) q) + tileLoss (logitsOf m c) (labelsOf m c) (imgOf t) (tileOf t) q
    ∧ (outsAt0 (F := Ideal) m c t.val t.isLt).2.2.2 (ix2 (0 : Fin 1) q)
        = (outsAt0 (F := Ideal) m c (t.val - 1) (Nat.lt_of_le_of_lt (Nat.sub_le _ _) t.isLt)).2.2.2 (ix2 (0 : Fin 1) q) + tileCount (labelsOf m c) (imgOf t) (tileOf t) q := by
  rw [outsAt0_B m c t h0 h1]
  dsimp only
  constructor
  · refine (congrFun (lossB (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xblk m c t) (lblk m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 (0 : Fin 1) q)).trans ?_
    refine (lossRow_at (xblk m c t) (lblk m c t) _ q).trans ?_
    rw [blockLoss_eq]
  · refine (congrFun (countB (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (xblk m c t) (lblk m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 (0 : Fin 1) q)).trans ?_
    refine (countRow_at (lblk m c t) _ q).trans ?_
    rw [blockCount_eq]

set_option maxHeartbeats 3200000 in
/-- A point at an image's last tile: the rows as at a middle tile, -/
theorem step_last (c : Dev nD) (t : Fin cfg0.N) (h0 : ¬t.val % 4 = 0) (h1 : t.val % 4 = 3) (q : Fin 512) :
    (outsAt0 (F := Ideal) m c t.val t.isLt).2.2.1 (ix2 (0 : Fin 1) q)
        = (outsAt0 (F := Ideal) m c (t.val - 1) (Nat.lt_of_le_of_lt (Nat.sub_le _ _) t.isLt)).2.2.1 (ix2 (0 : Fin 1) q) + tileLoss (logitsOf m c) (labelsOf m c) (imgOf t) (tileOf t) q
    ∧ (outsAt0 (F := Ideal) m c t.val t.isLt).2.2.2 (ix2 (0 : Fin 1) q)
        = (outsAt0 (F := Ideal) m c (t.val - 1) (Nat.lt_of_le_of_lt (Nat.sub_le _ _) t.isLt)).2.2.2 (ix2 (0 : Fin 1) q) + tileCount (labelsOf m c) (imgOf t) (tileOf t) q := by
  rw [outsAt0_C m c t h0 h1]
  dsimp only
  constructor
  · refine (congrFun (lossC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (lblk m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 (0 : Fin 1) q)).trans ?_
    refine (lossRow_at (xblk m c t) (lblk m c t) _ q).trans ?_
    rw [blockLoss_eq]
  · refine (congrFun (countC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (lblk m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 (0 : Fin 1) q)).trans ?_
    refine (countRow_at (lblk m c t) _ q).trans ?_
    rw [blockCount_eq]

set_option maxHeartbeats 3200000 in
/-- and the two outputs' blocks hold, in every entry, the lane sums of the two finished rows. -/
theorem out_last (c : Dev nD) (t : Fin cfg0.N) (h0 : ¬t.val % 4 = 0) (h1 : t.val % 4 = 3) (j : S1x1x128.Idx) :
    (outsAt0 (F := Ideal) m c t.val t.isLt).1 j = ∑ q : Fin 512, (outsAt0 (F := Ideal) m c t.val t.isLt).2.2.1 (ix2 (0 : Fin 1) q)
    ∧ (outsAt0 (F := Ideal) m c t.val t.isLt).2.1 j = ∑ q : Fin 512, (outsAt0 (F := Ideal) m c t.val t.isLt).2.2.2 (ix2 (0 : Fin 1) q) := by
  rw [outsAt0_C m c t h0 h1]
  dsimp only
  constructor
  · refine (congrFun (outLossC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (lblk m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) j).trans ?_
    rw [pay3_at]
    refine Finset.sum_congr rfl fun q _ => ?_
    exact (congrFun (lossC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (lblk m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 (0 : Fin 1) q)).symm
  · refine (congrFun (outCountC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (lblk m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) j).trans ?_
    rw [pay4_at]
    refine Finset.sum_congr rfl fun q _ => ?_
    exact (congrFun (countC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (xblk m c t) (lblk m c t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 (0 : Fin 1) q)).symm

/-! ## The rows after every point -/

/-- The column sums of an image's tiles `0 … k`. -/
def accLoss (X : FVec Ideal S8x19x512x512 .f32) (Lb : IVec S8x512x512 32) (n : Fin 8) (q : Fin 512) (k : ℕ) : EReal :=
  ∑ j ∈ Finset.range (k + 1), tileLoss X Lb n (tileAt j) q
def accCount (Lb : IVec S8x512x512 32) (n : Fin 8) (q : Fin 512) (k : ℕ) : EReal :=
  ∑ j ∈ Finset.range (k + 1), tileCount Lb n (tileAt j) q

theorem tileAt_of_mod {a b : ℕ} (h : a % 4 = b % 4) : tileAt a = tileAt b := Fin.ext h

theorem imgOf_succ (n : ℕ) (hn : n + 1 < cfg0.N) (h0 : ¬(n + 1) % 4 = 0) :
    imgOf ⟨n + 1, hn⟩ = imgOf ⟨n, Nat.lt_of_succ_lt hn⟩ := Fin.ext (by show (n + 1) / 4 = n / 4; omega)

/-- After point `n` the two rows hold the column sums of the tiles `0 … n % 4` of image `n / 4`. -/
theorem rows_after (c : Dev nD) : ∀ (n : ℕ) (hn : n < cfg0.N) (q : Fin 512),
    (outsAt0 (F := Ideal) m c n hn).2.2.1 (ix2 (0 : Fin 1) q) = accLoss (logitsOf m c) (labelsOf m c) (imgOf ⟨n, hn⟩) q (n % 4)
    ∧ (outsAt0 (F := Ideal) m c n hn).2.2.2 (ix2 (0 : Fin 1) q) = accCount (labelsOf m c) (imgOf ⟨n, hn⟩) q (n % 4)
  | 0, hn, q => by
    obtain ⟨e1, e2⟩ := step_first m c ⟨0, hn⟩ rfl (show ¬(0 : ℕ) % 4 = 3 by decide) q
    refine ⟨e1.trans ?_, e2.trans ?_⟩
    · unfold accLoss; rw [Finset.sum_range_one, zero_add, tileOf_eq]
    · unfold accCount; rw [Finset.sum_range_one, zero_add, tileOf_eq]
  | n + 1, hn, q => by
    by_cases h0 : (n + 1) % 4 = 0
    · have h1 : ¬(n + 1) % 4 = 3 := by omega
      obtain ⟨e1, e2⟩ := step_first m c ⟨n + 1, hn⟩ h0 h1 q
      refine ⟨e1.trans ?_, e2.trans ?_⟩
      · unfold accLoss; rw [h0, Finset.sum_range_one, zero_add, tileOf_eq]; exact congrArg (fun h => tileLoss _ _ _ h q) (tileAt_of_mod (by simpa using h0))
      · unfold accCount; rw [h0, Finset.sum_range_one, zero_add, tileOf_eq]; exact congrArg (fun h => tileCount _ _ h q) (tileAt_of_mod (by simpa using h0))
    · obtain ⟨i1, i2⟩ := rows_after c n (Nat.lt_of_succ_lt hn) q
      have hk : (n + 1) % 4 = n % 4 + 1 := by omega
      have himg := imgOf_succ n hn h0
      have hstep : (outsAt0 (F := Ideal) m c (n + 1) hn).2.2.1 (ix2 (0 : Fin 1) q)
            = (outsAt0 (F := Ideal) m c n (Nat.lt_of_succ_lt hn)).2.2.1 (ix2 (0 : Fin 1) q) + tileLoss (logitsOf m c) (labelsOf m c) (imgOf ⟨n + 1, hn⟩) (tileOf ⟨n + 1, hn⟩) q
          ∧ (outsAt0 (F := Ideal) m c (n + 1) hn).2.2.2 (ix2 (0 : Fin 1) q)
            = (outsAt0 (F := Ideal) m c n (Nat.lt_of_succ_lt hn)).2.2.2 (ix2 (0 : Fin 1) q) + tileCount (labelsOf m c) (imgOf ⟨n + 1, hn⟩) (tileOf ⟨n + 1, hn⟩) q := by
        by_cases h1 : (n + 1) % 4 = 3
        · exact step_last m c ⟨n + 1, hn⟩ h0 h1 q
        · exact step_mid m c ⟨n + 1, hn⟩ h0 h1 q
      obtain ⟨e1, e2⟩ := hstep
      refine ⟨e1.trans ?_, e2.trans ?_⟩
      · rw [i1, himg, hk]; unfold accLoss; rw [Finset.sum_range_succ _ (n % 4 + 1), tileOf_eq]
        exact congrArg (fun h => _ + tileLoss _ _ _ h q) (tileAt_of_mod (by show (n + 1) % 4 = (n % 4 + 1) % 4; omega))
      · rw [i2, himg, hk]; unfold accCount; rw [Finset.sum_range_succ _ (n % 4 + 1), tileOf_eq]
        exact congrArg (fun h => _ + tileCount _ _ h q) (tileAt_of_mod (by show (n + 1) % 4 = (n % 4 + 1) % 4; omega))

/-! ## An image's totals -/

/-- The total loss and the count of image `n`. -/
def imgLoss (X : FVec Ideal S8x19x512x512 .f32) (Lb : IVec S8x512x512 32) (n : Fin 8) : EReal :=
  ∑ y : Fin 512, ∑ q : Fin 512, lossK (pixel X n y q) (Lb (ix3 n y q))
def imgCount (Lb : IVec S8x512x512 32) (n : Fin 8) : EReal :=
  ∑ y : Fin 512, ∑ q : Fin 512, pixValid (Lb (ix3 n y q))

theorem sum_range_four (f : Fin 4 → EReal) : ∑ j ∈ Finset.range (3 + 1), f (tileAt j) = ∑ h : Fin 4, f h := by
  rw [Finset.sum_range]
  exact Finset.sum_congr rfl fun i _ => congrArg f (Fin.ext (Nat.mod_eq_of_lt i.isLt))

theorem lanes_accLoss (X : FVec Ideal S8x19x512x512 .f32) (Lb : IVec S8x512x512 32) (n : Fin 8) :
    ∑ q : Fin 512, accLoss X Lb n q 3 = imgLoss X Lb n := by
  unfold accLoss imgLoss
  rw [← sum_tiles fun y q => lossK (pixel X n y q) (Lb (ix3 n y q))]
  exact Finset.sum_congr rfl fun q _ => sum_range_four fun h => tileLoss X Lb n h q

theorem lanes_accCount (Lb : IVec S8x512x512 32) (n : Fin 8) :
    ∑ q : Fin 512, accCount Lb n q 3 = imgCount Lb n := by
  unfold accCount imgCount
  rw [← sum_tiles fun y q => pixValid (Lb (ix3 n y q))]
  exact Finset.sum_congr rfl fun q _ => sum_range_four fun h => tileCount Lb n h q

/-- At the last tile of an image the two outputs' blocks hold the image's total loss and count in every entry. -/
theorem out_totals (c : Dev nD) (t : Fin cfg0.N) (h1 : t.val % 4 = 3) (j : S1x1x128.Idx) :
    (outsAt0 (F := Ideal) m c t.val t.isLt).1 j = imgLoss (logitsOf m c) (labelsOf m c) (imgOf t)
    ∧ (outsAt0 (F := Ideal) m c t.val t.isLt).2.1 j = imgCount (labelsOf m c) (imgOf t) := by
  have h0 : ¬t.val % 4 = 0 := by omega
  obtain ⟨o1, o2⟩ := out_last m c t h0 h1 j
  refine ⟨o1.trans ?_, o2.trans ?_⟩
  · rw [← lanes_accLoss]
    refine Finset.sum_congr rfl fun q _ => ?_
    rw [(rows_after m c t.val t.isLt q).1, h1]
  · rw [← lanes_accCount]
    refine Finset.sum_congr rfl fun q _ => ?_
    rw [(rows_after m c t.val t.isLt q).2, h1]

end Cert.SmoothCE.Kernel

end
-- ==== Proof.KernelTail.lean ====
/-
  The host operations after the region: from each of the two output arrays the first lane of every image is taken, the
  eight numbers are summed from zero, and the first sum is divided by the second.
-/
import proofs.«422704_j68393059221597_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.SmoothCE.Kernel

open Idealize.ShloMosaic Idealize.ShloMosaic.TcCoe Idealize.ShloMosaic.ValueIdx Idealize.ShloMosaic.StableHlo Idealize.SL.Sem
open Cert.KernelIdeal Cert.KernelIdeal.Gen

/-- A sum over the indices of a rank-1 array is the sum over its coordinate. -/
private theorem sum_idx1 {M : Type*} [AddCommMonoid M] {n : ℕ} (f : (⟨1, ![n]⟩ : Shape).Idx → M) :
    ∑ i, f i = ∑ k : Fin n, f (ix1 k) :=
  (Fintype.sum_equiv (⟨fun k => ix1 k, fun i => i 0, fun _ => rfl, fun i => (eq_ix1 i).symm⟩ : Fin n ≃ (⟨1, ![n]⟩ : Shape).Idx)
    (fun k => f (ix1 k)) f fun _ => rfl).symm

/-- One of the two sums: the first lane of every image, taken by the slice and the reshape, added up from the zero word. -/
private theorem lane_sum (A : FVec Ideal S8x1x128 .f32) (j : S_.Idx) :
    Host.reduceAdd (F := Ideal)
        (shapeCast S8 (extractStridedSlice S8x1x1 ![0, 0, 0] A slices_S8x1x128_S8x1x1_0_0_0) shapeCasts_S8x1x1_S8)
        (constant (F := Ideal) S_ .f32 0x00000000#32) reducesTo_S8_S_d0 h_S_ j
      = 0 + ∑ n : Fin 8, A (ix3 n (0 : Fin 1) (0 : Fin 128)) := by
  have hread : ∀ n : Fin 8,
      shapeCast S8 (extractStridedSlice S8x1x1 ![0, 0, 0] A slices_S8x1x128_S8x1x1_0_0_0) shapeCasts_S8x1x1_S8 (ix1 n)
        = A (ix3 n (0 : Fin 1) (0 : Fin 128)) := by
    intro n
    rw [shapeCast_apply _ shapeCasts_S8x1x1_S8 (ix1 n) (ix3 n (0 : Fin 1) (0 : Fin 1))
      (by rw [Shape.rowMajor_val_three, Shape.rowMajor_val_one]; simp)]
    exact extractStridedSlice_apply _ A _ _ (ix3 n (0 : Fin 1) (0 : Fin 128)) (fun a => by
      match a with
      | ⟨0, _⟩ => simp
      | ⟨1, _⟩ => simp
      | ⟨2, _⟩ => simp)
  generalize shapeCast S8 (extractStridedSlice S8x1x1 ![0, 0, 0] A slices_S8x1x128_S8x1x1_0_0_0) shapeCasts_S8x1x1_S8 = y
    at hread ⊢
  simp only [Host.reduceAdd, Ideal.hostReduceAdd_def]
  rw [Ideal.hostReduceAdd_total reducesTo_S8_S_d0 (fun b => b.elim0) y _ j, constant_apply, Ideal.ofBits_zero_f32, sum_idx1]
  simp only [hread]

/-- What the operations after the region leave in the result buffer, from any contents `W` of the buffers before them:
    the quotient of the two sums over the images of the first lane of the two output arrays. -/
theorem tail_value (W : Valuation τ sig (Elt Ideal)) :
    StableHlo.after (hostOps1 (F := Ideal)) W (Proc.devRef .tc main_v7)
      = fun _ => Ideal.div (0 + ∑ n : Fin 8, (show EReal from (W (Proc.devRef .tc main_v0_0) : FVec Ideal S8x1x128 .f32) (ix3 n (0 : Fin 1) (0 : Fin 128))))
                           (0 + ∑ n : Fin 8, (show EReal from (W (Proc.devRef .tc main_v0_1) : FVec Ideal S8x1x128 .f32) (ix3 n (0 : Fin 1) (0 : Fin 128)))) := by
  show StableHlo.after hostOps1 W (Proc.devRef .tc main_v7) = _
  after_results
  funext i
  exact congrArg₂ Ideal.div (lane_sum (W (Proc.devRef .tc main_v0_0)) i) (lane_sum (W (Proc.devRef .tc main_v0_1)) i)

end Cert.SmoothCE.Kernel

end
-- ==== Proof.KernelValue.lean ====
/-
  The idealized kernel's run, read: its result is the mean loss of the specification.

  Output block `n` is written back once, after the last tile of image `n`, and then holds the image's total loss
  (second output: its count) in every lane. So the two output arrays end, at `(n, 0, l)`, at the totals of image `n`;
  the operations after the region add the eight totals of each array and divide.
-/
import proofs.«422704_j68393059221597_2_alg».proof.Proof.KernelAccum
import proofs.«422704_j68393059221597_2_alg».proof.Proof.KernelTail
import Idealize.ShloMosaic.Lib.Pipeline.Value

set_option maxRecDepth 16384

noncomputable section

namespace Cert.SmoothCE.Kernel

open Idealize.ShloMosaic Idealize.ShloMosaic.TcCoe Idealize.ShloMosaic.ValueIdx Idealize.SL.Sem
open Idealize.ShloMosaic.Pipeline (Dat)
open Cert.KernelIdeal Cert.KernelIdeal.Gen Cert.SmoothCE

variable (m : (ℓ : Loc nD τ sig) → Buf (Elt Ideal) ℓ) (ρ : Dev nD → PrngReg)

/-- The index maps of the two output windows, decided over the grid: block `(t / 4, 0, 0)`. -/
theorem out_idx : ∀ t : Fin cfg0.N, win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- The two output arrays as they end: the totals of image `n` at `(n, 0, l)`. -/
abbrev lossArr (c : Dev nD) : FVec Ideal S8x1x128 .f32 := fun i => imgLoss (logitsOf m c) (labelsOf m c) ⟨(i 0).val, (i 0).isLt⟩
abbrev countArr (c : Dev nD) : FVec Ideal S8x1x128 .f32 := fun i => imgCount (labelsOf m c) ⟨(i 0).val, (i 0).isLt⟩

/-- What a write-back of the first output writes is the block of `lossArr`. -/
theorem flushedLoss_eq (c : Dev nD) (t : Fin cfg0.N) (hf : (cfg0.win 2).flush t = true) :
    (dats m 0 c).flushed 2 t = ((cfg0.win 2).blk t).view.read (Elt Ideal) (lossArr m c) := by
  have h3 : t.val % 4 = 3 := (flush0_2 t).mp hf
  obtain ⟨e0, -, -, -, -, -⟩ := out_idx t
  show (cfg0.win 2).cut (grid0.coords t) ((dats m 0 c).after 2 t) = _
  rw [after0_2]
  funext j
  show (outsAt0 (F := Ideal) m c t.val t.isLt).1 j = lossArr m c (((cfg0.win 2).blk t).view.emb j)
  rw [(out_totals m c t h3 j).1]
  refine congrArg (imgLoss (logitsOf m c) (labelsOf m c)) (Fin.ext ?_)
  show t.val / 4 = win0_2.index t (0 : Fin 3) * 1 + 1 * (j 0).val
  have hj : (j 0).val < 1 := (j 0).isLt
  omega

theorem flushedCount_eq (c : Dev nD) (t : Fin cfg0.N) (hf : (cfg0.win 3).flush t = true) :
    (dats m 0 c).flushed 3 t = ((cfg0.win 3).blk t).view.read (Elt Ideal) (countArr m c) := by
  have h3 : t.val % 4 = 3 := (flush0_3 t).mp hf
  obtain ⟨-, -, -, e0, -, -⟩ := out_idx t
  show (cfg0.win 3).cut (grid0.coords t) ((dats m 0 c).after 3 t) = _
  rw [after0_3]
  funext j
  show (outsAt0 (F := Ideal) m c t.val t.isLt).2.1 j = countArr m c (((cfg0.win 3).blk t).view.emb j)
  rw [(out_totals m c t h3 j).2]
  refine congrArg (imgCount (labelsOf m c)) (Fin.ext ?_)
  show t.val / 4 = win0_3.index t (0 : Fin 3) * 1 + 1 * (j 0).val
  have hj : (j 0).val < 1 := (j 0).isLt
  omega

/-- The point that writes block `n` back: the last tile of image `n`. -/
def lastOf (n : Fin 8) : Fin cfg0.N := ⟨4 * n.val + 3, by have := n.isLt; have h : cfg0.N = 32 := N_0; omega⟩

/-- Every entry of the first output array lies in the block some write-back writes. -/
theorem coverLoss (i : S8x1x128.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 128 := (i 2).isLt
  refine ⟨lastOf ⟨(i 0).val, h0⟩, (flush0_2 _).mpr (by show (4 * (i 0).val + 3) % 4 = 3; omega), ?_⟩
  obtain ⟨e0, e1, e2, -, -, -⟩ := out_idx (lastOf ⟨(i 0).val, h0⟩)
  have ev : (lastOf ⟨(i 0).val, h0⟩).val = 4 * (i 0).val + 3 := rfl
  show i ∈ ((View.whole main_v0_0).slice (win0_2.rect (lastOf ⟨(i 0).val, h0⟩))).set
  rw [View.set_slice_whole, Rect.mem_set_unit]
  intro a
  match a with
  | ⟨0, _⟩ => show win0_2.index (lastOf ⟨(i 0).val, h0⟩) (0 : Fin 3) * 1 ≤ (i 0).val ∧ (i 0).val < win0_2.index (lastOf ⟨(i 0).val, h0⟩) (0 : Fin 3) * 1 + 1; omega
  | ⟨1, _⟩ => show win0_2.index (lastOf ⟨(i 0).val, h0⟩) (1 : Fin 3) * 1 ≤ (i 1).val ∧ (i 1).val < win0_2.index (lastOf ⟨(i 0).val, h0⟩) (1 : Fin 3) * 1 + 1; omega
  | ⟨2, _⟩ => show win0_2.index (lastOf ⟨(i 0).val, h0⟩) (2 : Fin 3) * 128 ≤ (i 2).val ∧ (i 2).val < win0_2.index (lastOf ⟨(i 0).val, h0⟩) (2 : Fin 3) * 128 + 128; omega

theorem coverCount (i : S8x1x128.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 128 := (i 2).isLt
  refine ⟨lastOf ⟨(i 0).val, h0⟩, (flush0_3 _).mpr (by show (4 * (i 0).val + 3) % 4 = 3; omega), ?_⟩
  obtain ⟨-, -, -, e0, e1, e2⟩ := out_idx (lastOf ⟨(i 0).val, h0⟩)
  have ev : (lastOf ⟨(i 0).val, h0⟩).val = 4 * (i 0).val + 3 := rfl
  show i ∈ ((View.whole main_v0_1).slice (win0_3.rect (lastOf ⟨(i 0).val, h0⟩))).set
  rw [View.set_slice_whole, Rect.mem_set_unit]
  intro a
  match a with
  | ⟨0, _⟩ => show win0_3.index (lastOf ⟨(i 0).val, h0⟩) (0 : Fin 3) * 1 ≤ (i 0).val ∧ (i 0).val < win0_3.index (lastOf ⟨(i 0).val, h0⟩) (0 : Fin 3) * 1 + 1; omega
  | ⟨1, _⟩ => show win0_3.index (lastOf ⟨(i 0).val, h0⟩) (1 : Fin 3) * 1 ≤ (i 1).val ∧ (i 1).val < win0_3.index (lastOf ⟨(i 0).val, h0⟩) (1 : Fin 3) * 1 + 1; omega
  | ⟨2, _⟩ => show win0_3.index (lastOf ⟨(i 0).val, h0⟩) (2 : Fin 3) * 128 ≤ (i 2).val ∧ (i 2).val < win0_3.index (lastOf ⟨(i 0).val, h0⟩) (2 : Fin 3) * 128 + 128; omega

/-- The two output arrays after the region. -/
theorem finalLoss (c : Dev nD) : (dats m 0 c).arrAt 2 cfg0.N = lossArr m c :=
  (dats m 0 c).arrAt_eq_of_cover 2 (lossArr m c) (flushedLoss_eq m c) coverLoss

theorem finalCount (c : Dev nD) : (dats m 0 c).arrAt 3 cfg0.N = countArr m c :=
  (dats m 0 c).arrAt_eq_of_cover 3 (countArr m c) (flushedCount_eq m c) coverCount

/-! ## The run, read -/

/-- On real logits and labels in range the kernel's pixel loss is the specification's, so an image's total is the
    specification's inner double sum. -/
theorem imgLoss_eq (X : FVec Ideal S8x19x512x512 .f32) (Lb : IVec S8x512x512 32) (hX : FiniteLogits X) (hL : LabelsInRange Lb) (n : Fin 8) :
    imgLoss X Lb n = ∑ y : Fin 512, ∑ x : Fin 512, pixLoss (pixel X n y x) (Lb (ix3 n y x)) :=
  Finset.sum_congr rfl fun y _ => Finset.sum_congr rfl fun q _ => lossK_eq_pixLoss _ _ (fun cl => hX _) (hL _)

/-- The operations after the region, from contents whose two output arrays are `A` and `B`. -/
private theorem tail_value_of (W : Valuation τ sig (Elt Ideal)) (A B : FVec Ideal S8x1x128 .f32)
    (hA : W (Proc.devRef .tc main_v0_0) = A) (hB : W (Proc.devRef .tc main_v0_1) = B) :
    StableHlo.after (hostOps1 (F := Ideal)) W (Proc.devRef .tc main_v7)
      = fun _ => Ideal.div (0 + ∑ n : Fin 8, A (ix3 n (0 : Fin 1) (0 : Fin 128))) (0 + ∑ n : Fin 8, B (ix3 n (0 : Fin 1) (0 : Fin 128))) := by
  subst hA hB
  exact tail_value W

/-- Every weakly fair execution of the idealized kernel's program ends with its result at the mean loss of the
    specification and its arguments unchanged. -/
theorem run (hfin : ∀ c : Dev nD, FiniteLogits (logitsOf m c) ∧ LabelsInRange (labelsOf m c)) :
    θ_run defs (onTc (τ := τ) (main (F := Ideal))) ⟨m, fun _ => 0, ρ⟩ fun r => ∀ c : Dev nD,
      r.2.mem ((c : Thread nD τ).loc main_v7) = (fun _ => meanLoss (logitsOf m c) (labelsOf m c))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ?_⟩) (run_main m ρ)
  · refine ((h c).2 main_v7 (by decide)).trans ?_
    unfold Pipeline.afterTail₀
    show StableHlo.after hostOps1 (Pipeline.withArrays spec0 c (V0 m c) fun w => (dats m 0 c).arrAt w cfg0.N)
      (Proc.devRef .tc main_v7) = _
    have e0 : (Pipeline.withArrays spec0 c (V0 m c) fun w => (dats m 0 c).arrAt w cfg0.N) (Proc.devRef .tc main_v0_0)
        = lossArr m c :=
      (Pipeline.withArrays_arr spec0 launch0.win.arr_inj c (V0 m c) (fun w => (dats m 0 c).arrAt w cfg0.N) 2).trans (finalLoss m c)
    have e1 : (Pipeline.withArrays spec0 c (V0 m c) fun w => (dats m 0 c).arrAt w cfg0.N) (Proc.devRef .tc main_v0_1)
        = countArr m c :=
      (Pipeline.withArrays_arr spec0 launch0.win.arr_inj c (V0 m c) (fun w => (dats m 0 c).arrAt w cfg0.N) 3).trans (finalCount m c)
    rw [tail_value_of _ (lossArr m c) (countArr m c) e0 e1]
    funext j
    unfold meanLoss lossSum validSum
    rw [zero_add, zero_add]
    refine congrArg₂ Ideal.div (Finset.sum_congr rfl fun n _ => ?_) (Finset.sum_congr rfl fun n _ => ?_)
    · exact imgLoss_eq (logitsOf m c) (labelsOf m c) (hfin c).1 (hfin c).2 n
    · rfl
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.SmoothCE.Kernel

end
-- ==== Proof.Count.lean ====
/-
  Counting with integers and with extended reals agree: the integer sum of a 0/1 mask over fewer than 2^31
  positions, converted to a float, is the sum of the extended reals 0 and 1.
-/
import proofs.«422704_j68393059221597_2_alg».proof.Proof.Spec
import Idealize.ShloMosaic.Lib.StableHlo.Predicate
import Idealize.ShloMosaic.Lib.ReduceAll
import Idealize.ShloMosaic.PureOps.Ideal.Laws

noncomputable section

namespace Cert.SmoothCE

open Idealize.ShloMosaic Idealize.ShloMosaic.ValueIdx

/-- The cast of a natural-number count of the positions off a predicate is the sum of the extended reals 0 and 1. -/
private theorem coe_count {ι : Type} (s : Finset ι) (p : ι → Prop) [DecidablePred p] :
    (((((∑ i ∈ s, (if p i then 0 else 1 : ℕ)) : ℕ) : ℤ) : ℝ) : EReal) = ∑ i ∈ s, (if p i then (0 : EReal) else 1) := by
  classical
  induction s using Finset.induction_on with
  | empty => simp
  | insert a s ha ih =>
    rw [Finset.sum_insert ha, Finset.sum_insert ha, ← ih]
    by_cases h : p a
    · simp [h]
    · simp only [h, if_false]
      rw [Nat.cast_add, Int.cast_add, EReal.coe_add, Nat.cast_one, Int.cast_one, EReal.coe_one]

/-- The count over any array of fewer than 2^31 positions, reduced over all its axes. -/
private theorem sitofp_count_gen {S T U : Shape} {axes : List (Fin S.rank)} [Subsingleton T.Idx] (Lb : IVec S 32)
    (hS : S.numel < 2 ^ 31) (hred : S.ReducesTo axes T) (hpos : 0 < U.numel) (h132 : 1 < 32) (j : T.Idx) :
    FloatOps.sitofp (F := Ideal) .f32
      (Host.reduce IntOp.addi (extui 32 (noti (cmpi .eq Lb (fun _ => 255#32))) h132) (constantI U 32 0#32) hred hpos j)
      = ∑ i : S.Idx, pixValid (Lb i) := by
  classical
  rw [Host.reduce_eq_fold]
  have hall : (Finset.univ.filter fun i : S.Idx => hred.drop i = j) = Finset.univ :=
    Finset.filter_true_of_mem fun i _ => Subsingleton.elim _ _
  rw [hall]
  set x : S.Idx → BitVec 32 := extui 32 (noti (cmpi .eq Lb (fun _ => 255#32))) h132 with hx
  have hval : ∀ i, (x i).toNat = if Lb i = 255#32 then 0 else 1 := by
    intro i
    show ((~~~ (IntOp.cmpi .eq (Lb i) 255#32)).setWidth 32).toNat = _
    rw [StableHlo.Predicate.toNat_setWidth_bit]
    by_cases h : Lb i = 255#32
    · have h1 : IntOp.cmpi .eq (Lb i) 255#32 = 1#1 := StableHlo.Predicate.cmpi_eq_iff.mpr h
      rw [if_pos h, h1]; rfl
    · have h1 : IntOp.cmpi .eq (Lb i) 255#32 ≠ 1#1 := fun e => h (StableHlo.Predicate.cmpi_eq_iff.mp e)
      have h0 : IntOp.cmpi .eq (Lb i) 255#32 = 0#1 := (BitVec.eq_zero_or_eq_one _).resolve_right h1
      rw [if_neg h, h0]; rfl
  have hle : ∑ i : S.Idx, (x i).toNat ≤ S.numel := by
    calc ∑ i : S.Idx, (x i).toNat ≤ ∑ _i : S.Idx, 1 :=
          Finset.sum_le_sum fun i _ => by rw [hval]; split <;> omega
      _ = S.numel := by rw [Finset.sum_const, Finset.card_univ, Shape.card_idx, smul_eq_mul, mul_one]
  have hnat : ((Finset.univ : Finset S.Idx).fold IntOp.addi 0#32 x).toNat = ∑ i : S.Idx, (x i).toNat :=
    StableHlo.Predicate.toNat_fold_addi Finset.univ x (by omega)
  show (((((Finset.univ : Finset S.Idx).fold IntOp.addi 0#32 x).toInt : ℝ)) : EReal) = _
  rw [StableHlo.Predicate.toInt_eq_toNat_of_lt (by rw [hnat]; omega), hnat]
  simp only [hval]
  exact coe_count Finset.univ (fun i => Lb i = 255#32)

/-- The `[8, 512, 512]` array has fewer than `2^31` positions. -/
private theorem numel_lt : (⟨3, ![8, 512, 512]⟩ : Shape).numel < 2 ^ 31 := by
  show (∏ a : Fin 3, (![8, 512, 512] : Fin 3 → ℕ) a) < 2 ^ 31
  rw [Fin.prod_univ_three]
  show (8 * 512 * 512 : ℕ) < 2 ^ 31
  norm_num

/-- The number of label words other than 255, counted as 32-bit integers over the whole `[8, 512, 512]` array
    (the widened negation of the comparison with 255, summed from 0) and converted, is the sum of the pixel
    counts. -/
theorem sitofp_count (Lb : IVec (⟨3, ![8, 512, 512]⟩ : Shape) 32)
    (hred : (⟨3, ![8, 512, 512]⟩ : Shape).ReducesTo [0, 1, 2] ⟨0, ![]⟩) (hpos : 0 < (⟨0, ![]⟩ : Shape).numel)
    (h132 : 1 < 32) (j : (⟨0, ![]⟩ : Shape).Idx) :
    FloatOps.sitofp (F := Ideal) .f32
      (Host.reduce IntOp.addi (extui 32 (noti (cmpi .eq Lb (fun _ => 255#32))) h132) (constantI ⟨0, ![]⟩ 32 0#32) hred hpos j)
      = ∑ i : (⟨3, ![8, 512, 512]⟩ : Shape).Idx, pixValid (Lb i) :=
  sitofp_count_gen Lb numel_lt hred hpos h132 j

end Cert.SmoothCE

end
-- ==== Proof.RefLogSoftmax.lean ====
/-
  The label-independent parts of the reference, read at an index: the log-softmax of the logits is the
  log-probability of the specification, its sum over the classes, and the number of pixels that are not ignored.
-/
import proofs.«422704_j68393059221597_2_alg».proof.Proof.RefRead
import proofs.«422704_j68393059221597_2_alg».proof.Proof.Spec
import proofs.«422704_j68393059221597_2_alg».proof.Proof.Sums
import proofs.«422704_j68393059221597_2_alg».proof.Proof.Count
import Idealize.ShloMosaic.Lib.ReduceAll

noncomputable section

namespace Cert.SmoothCE.Ref

open Idealize.ShloMosaic Idealize.ShloMosaic.ValueIdx Cert.SmoothCE
open Cert.ReferenceIdeal Cert.ReferenceIdeal.Gen Cert.ReferenceIdeal.ReadP

/-- The word `0xFF800000` denotes `-∞`. -/
private theorem ofBits_negInf : Ideal.ofBits .f32 0xFF800000#32 = ⊥ := by
  simp [Ideal.ofBits, Ideal.ieee]

/-- The reduce by `maximum` over the class axis, at pixel `(n, y, x)`, is the largest logit of the pixel. -/
private theorem max_at (X : FVec Ideal S8x19x512x512 .f32) (n : Fin 8) (y x : Fin 512) :
    val_main_call1_v0 (F := Ideal) X (ix3 n y x) = mx (pixel X n y x) := by
  unfold val_main_call1_v0
  rw [Host.reduce_eq_fold_single FloatOps.maximumf X (val_main_call1_cst (F := Ideal))
    reducesTo_S8x19x512x512_S8x512x512_d1 (by decide) h_S_ (ix3 n y x)]
  show (Finset.univ : Finset (Fin 19)).fold max (Ideal.ofBits .f32 0xFF800000#32) _ = (Finset.univ : Finset (Fin 19)).fold max ⊥ _
  rw [ofBits_negInf]
  refine congrArg (fun f => (Finset.univ : Finset (Fin 19)).fold max ⊥ f) (funext fun k => ?_)
  exact congrArg X (funext fun a => Fin.ext (by match a with | ⟨0, _⟩ => rfl | ⟨1, _⟩ => rfl | ⟨2, _⟩ => rfl | ⟨3, _⟩ => rfl))

/-- The broadcast maximum at `(n, c, y, x)`. -/
private theorem v4_at (X : FVec Ideal S8x19x512x512 .f32) (n : Fin 8) (c : Fin 19) (y x : Fin 512) :
    val_main_call1_v4 (F := Ideal) X (ix4 n c y x) = mx (pixel X n y x) := by
  have hi : idx_main_call1_v3 (idx_main_call1_v4 (ix4 n c y x)) = ix3 n y x :=
    funext fun a => Fin.ext (by match a with | ⟨0, _⟩ => rfl | ⟨1, _⟩ => rfl | ⟨2, _⟩ => rfl)
  rw [val_main_call1_v4_apply, val_main_call1_v3_apply, val_main_call1_v2_apply, val_main_call1_v1_apply,
    val_main_call1_cst_0_apply, hi, max_at]
  show max (Ideal.ofBits .f32 0xFF800000#32) _ = _
  rw [ofBits_negInf]
  exact max_eq_right bot_le

/-- The shifted logit at `(n, c, y, x)`. -/
private theorem v5_at (X : FVec Ideal S8x19x512x512 .f32) (n : Fin 8) (c : Fin 19) (y x : Fin 512) :
    val_main_call1_v5 (F := Ideal) X (ix4 n c y x) = X (ix4 n c y x) - mx (pixel X n y x) := by
  rw [val_main_call1_v5_apply, v4_at]
  rfl

/-- The sum of the shifted exponentials at pixel `(n, y, x)`. -/
private theorem v7_at (X : FVec Ideal S8x19x512x512 .f32) (n : Fin 8) (y x : Fin 512) :
    val_main_call1_v7 (F := Ideal) X (ix3 n y x) = ∑ k : Fin 19, Ideal.exp (X (ix4 n k y x) - mx (pixel X n y x)) := by
  rw [val_main_call1_v7_apply, val_main_call1_cst_1_apply]
  show Ideal.ofBits .f32 0x00000000#32 + _ = _
  rw [Ideal.ofBits_zero_f32, zero_add]
  refine Finset.sum_congr rfl fun k _ => ?_
  have hi : idx_main_call1_v7 (ix3 n y x) k = ix4 n k y x :=
    funext fun a => Fin.ext (by match a with | ⟨0, _⟩ => rfl | ⟨1, _⟩ => rfl | ⟨2, _⟩ => rfl | ⟨3, _⟩ => rfl)
  rw [val_main_call1_v6_apply, hi, v5_at]
  rfl

/-- The broadcast log of that sum at `(n, c, y, x)`. -/
private theorem v10_at (X : FVec Ideal S8x19x512x512 .f32) (n : Fin 8) (c : Fin 19) (y x : Fin 512) :
    val_main_call1_v10 (F := Ideal) X (ix4 n c y x)
      = Ideal.log (∑ k : Fin 19, Ideal.exp (X (ix4 n k y x) - mx (pixel X n y x))) := by
  have hi : idx_main_call1_v8 (idx_main_call1_v10 (ix4 n c y x)) = ix3 n y x :=
    funext fun a => Fin.ext (by match a with | ⟨0, _⟩ => rfl | ⟨1, _⟩ => rfl | ⟨2, _⟩ => rfl)
  rw [val_main_call1_v10_apply, val_main_call1_v9_apply, val_main_call1_v8_apply, hi, v7_at]
  rfl

/-- The reference's log-softmax at class `c` of pixel `(n, y, x)` is the log-probability of the specification. -/
theorem logsoftmax_at (X : FVec Ideal Cert.ReferenceIdeal.S8x19x512x512 .f32) (n : Fin 8) (c : Fin 19) (y x : Fin 512) :
    Cert.ReferenceIdeal.ReadP.val_main_v6 (F := Ideal) X (ix4 n c y x) = logp (pixel X n y x) c := by
  rw [val_main_v6_apply, v5_at, v10_at]
  rfl

/-- The reference's sum of the log-probabilities of a pixel (summed from the zero word). -/
theorem sumlogs_at (X : FVec Ideal Cert.ReferenceIdeal.S8x19x512x512 .f32) (n : Fin 8) (y x : Fin 512) :
    Cert.ReferenceIdeal.ReadP.val_main_v12 (F := Ideal) X (ix3 n y x) = ∑ c : Fin 19, logp (pixel X n y x) c := by
  rw [val_main_v12_apply, val_main_cst_2_apply]
  show Ideal.ofBits .f32 0x00000000#32 + _ = _
  rw [Ideal.ofBits_zero_f32, zero_add]
  refine Finset.sum_congr rfl fun k _ => ?_
  have hi : idx_main_v12 (ix3 n y x) k = ix4 n k y x :=
    funext fun a => Fin.ext (by match a with | ⟨0, _⟩ => rfl | ⟨1, _⟩ => rfl | ⟨2, _⟩ => rfl | ⟨3, _⟩ => rfl)
  rw [hi]
  exact logsoftmax_at X n k y x

/-- The reference's divisor: the converted count of the pixels that are not ignored. -/
theorem divisor_eq (Lb : IVec Cert.ReferenceIdeal.S8x512x512 32) (i : Cert.ReferenceIdeal.S_.Idx) :
    Cert.ReferenceIdeal.ReadP.val_main_v19 (F := Ideal) Lb i = validSum Lb := by
  have h0 : val_main_v0 (F := Ideal) = fun _ => 255#32 := funext fun j => by rw [val_main_v0_apply]; rfl
  rw [val_main_v19_apply]
  unfold val_main_v4 val_main_v3 val_main_v2 val_main_v1 val_main_c_0
  rw [h0, sitofp_count Lb reducesTo_S8x512x512_S_d0_1_2 h_S_ natLt_1_32 i]
  unfold validSum
  exact sum_idx3 _

end Cert.SmoothCE.Ref

end
-- ==== Proof.RefTotal.lean ====
/-
  From the pixels to the result: if the reference's masked loss at every pixel is the specification's pixel loss, its
  result is the specification's mean loss (the sum over all pixels from the zero word, divided by the converted count).
-/
import proofs.«422704_j68393059221597_2_alg».proof.Proof.RefLogSoftmax

noncomputable section

namespace Cert.SmoothCE.Ref

open Idealize.ShloMosaic Idealize.ShloMosaic.ValueIdx Cert.SmoothCE
open Cert.ReferenceIdeal Cert.ReferenceIdeal.Gen Cert.ReferenceIdeal.ReadP

/-- The reference's result from its pixelwise losses. -/
theorem value_of_pixels (X : FVec Ideal Cert.ReferenceIdeal.S8x19x512x512 .f32) (Lb : IVec Cert.ReferenceIdeal.S8x512x512 32)
    (hpix : ∀ (n : Fin 8) (y x : Fin 512),
      Cert.ReferenceIdeal.ReadP.val_main_v17 (F := Ideal) X Lb (ix3 n y x) = pixLoss (pixel X n y x) (Lb (ix3 n y x))) :
    Cert.ReferenceIdeal.ReadP.val_main_v20 (F := Ideal) X Lb = fun _ => meanLoss X Lb := by
  funext i
  rw [val_main_v20_apply, divisor_eq, val_main_v18_apply, val_main_cst_5_apply]
  show Ideal.div (Ideal.ofBits .f32 0x00000000#32 + _) _ = _
  rw [Ideal.ofBits_zero_f32, zero_add, sum_idx3]
  unfold meanLoss lossSum
  refine congrArg (fun s => Ideal.div s (validSum Lb)) ?_
  exact Finset.sum_congr rfl fun n _ => Finset.sum_congr rfl fun y _ => Finset.sum_congr rfl fun x _ => hpix n y x

end Cert.SmoothCE.Ref

end
-- ==== Proof.RefValue.lean ====
/-
  The reference's result is the mean loss of the specification.

  Pixel by pixel the reference forms the log-probabilities `(v c - M) - log (∑ exp (v c' - M))`, reads the one at the
  pixel's label, adds the weighted sum of them all, negates, and replaces the loss of an ignored pixel by zero;
  the sum of these over all pixels is divided by the number of pixels that are not ignored, counted as an integer
  and converted. With every label the ignore word or a class below 19 the read is in range and returns the
  target's log-probability, so the quotient is the specification's.
-/
import proofs.«422704_j68393059221597_2_alg».proof.Proof.RefRead
import proofs.«422704_j68393059221597_2_alg».proof.Proof.Sums
import proofs.«422704_j68393059221597_2_alg».proof.Proof.Count
import proofs.«422704_j68393059221597_2_alg».proof.Proof.Spec
import proofs.«422704_j68393059221597_2_alg».proof.Proof.LibSums
import proofs.«422704_j68393059221597_2_alg».proof.Proof.RefTotal
import Idealize.ShloMosaic.Lib.ReduceAll
import Idealize.ShloMosaic.Lib.StableHlo.Predicate
import Idealize.ShloMosaic.Lib.ValueIdx

noncomputable section

namespace Cert.SmoothCE.Ref

open Idealize.ShloMosaic Cert.SmoothCE
open Idealize.ShloMosaic.ValueIdx Cert.ReferenceIdeal Cert.ReferenceIdeal.Gen Cert.ReferenceIdeal.ReadP

/-- The dimension numbers of the read along the class axis. -/
private abbrev gd := gather_S8x19x512x512_S8x1x512x512x1_S8x1x512x512_n_1_023_023_1_4_1111

/-- The gather along the class axis, read at pixel `(n, y, x)`: the operand at the class its start index names,
    read signed and clamped into `[0, 18]`. -/
private theorem gather_read {α : Type} {w : Nat} (v : S8x19x512x512.Idx → α) (idx : IVec S8x1x512x512x1 w)
    (n : Fin 8) (y x : Fin 512) :
    Host.gather gd v idx (ix4 n (0 : Fin 1) y x)
      = v (ix4 n (⟨min (idx (ix5 n (0 : Fin 1) y x (0 : Fin 1))).toInt.toNat 18, by omega⟩ : Fin 19) y x) := by
  unfold Host.gather
  congr 1
  funext a
  refine Fin.ext ?_
  match a with
  | ⟨0, _⟩ =>
    show gd.start _ idx 0 + gd.batchCoord _ 0 + gd.offCoord _ 0 = n.val
    rw [GatherDims.start_batching _ _ _ _ (by decide), GatherDims.offCoord_eq_zero _ _ _ (by rw [GatherDims.mem_sKept]; decide)]
    simp only [Nat.zero_add, Nat.add_zero]
    unfold GatherDims.batchCoord
    rw [dif_pos (by decide)]
    rfl
  | ⟨1, _⟩ =>
    show gd.start _ idx 1 + gd.batchCoord _ 1 + gd.offCoord _ 1 = min (idx (ix5 n (0 : Fin 1) y x (0 : Fin 1))).toInt.toNat 18
    rw [GatherDims.batchCoord_eq_zero _ _ _ (by decide), GatherDims.offCoord_eq_zero _ _ _ (by rw [GatherDims.mem_sKept]; decide)]
    simp only [Nat.add_zero]
    unfold GatherDims.start
    rw [dif_pos (show (1 : Fin 4) ∈ gd.startIndexMap from by decide)]
    have hsi : gd.siIdx (ix4 n (0 : Fin 1) y x) ⟨List.idxOf (1 : Fin 4) gd.startIndexMap,
        List.idxOf_lt_length_iff.2 (show (1 : Fin 4) ∈ gd.startIndexMap from by decide)⟩ = ix5 n (0 : Fin 1) y x (0 : Fin 1) := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  | ⟨2, _⟩ =>
    show gd.start _ idx 2 + gd.batchCoord _ 2 + gd.offCoord _ 2 = y.val
    rw [GatherDims.start_batching _ _ _ _ (by decide), GatherDims.offCoord_eq_zero _ _ _ (by rw [GatherDims.mem_sKept]; decide)]
    simp only [Nat.zero_add, Nat.add_zero]
    unfold GatherDims.batchCoord
    rw [dif_pos (by decide)]
    rfl
  | ⟨3, _⟩ =>
    show gd.start _ idx 3 + gd.batchCoord _ 3 + gd.offCoord _ 3 = x.val
    rw [GatherDims.start_batching _ _ _ _ (by decide), GatherDims.offCoord_eq_zero _ _ _ (by rw [GatherDims.mem_sKept]; decide)]
    simp only [Nat.zero_add, Nat.add_zero]
    unfold GatherDims.batchCoord
    rw [dif_pos (by decide)]
    rfl

/-! ## Label words -/

/-- The label with the ignore word replaced by class 0. -/
private def clampL (l : BitVec 32) : BitVec 32 := Scalar.select (IntOp.cmpi .eq l 255#32) 0#32 l

private theorem clampL_of_ne {l : BitVec 32} (h : l ≠ 255#32) : clampL l = l := by
  unfold clampL
  have h0 : IntOp.cmpi .eq l 255#32 = 0#1 := eq_zero_of_ne_one (fun e => h (IntOp.cmpi_eq.1 e))
  rw [h0, select_zero]

private theorem clampL_lt {l : BitVec 32} (hl : l = 255#32 ∨ l.toNat < 19) : (clampL l).toNat < 19 := by
  by_cases h : l = 255#32
  · subst h; decide
  · rw [clampL_of_ne h]; exact hl.resolve_left h

/-- A word below 19 is not negative as a signed word, so the wrap-around of negative indices leaves it. -/
private theorem fix_of_small {w : BitVec 32} (hw : w.toNat < 19) :
    Scalar.select (IntOp.cmpi .slt w 0#32) (IntOp.addi w 19#32) w = w := by
  have h0 : IntOp.cmpi .slt w 0#32 = 0#1 := eq_zero_of_ne_one (fun e => by
    rw [StableHlo.Predicate.slt_iff_toNat (by omega) (by decide)] at e
    have : (0#32 : BitVec 32).toNat = 0 := rfl
    omega)
  rw [h0, select_zero]

/-- A word below 19 is within `[0, 18]` as a signed word. -/
private theorem inb_of_small {w : BitVec 32} (hw : w.toNat < 19) :
    IntOp.andi (IntOp.cmpi .sge w 0#32) (IntOp.cmpi .sle w 18#32) = 1#1 := by
  have h0 : (0#32 : BitVec 32).toNat = 0 := rfl
  have h18 : (18#32 : BitVec 32).toNat = 18 := rfl
  rw [IntOp.andi_eq_one]
  exact ⟨(StableHlo.Predicate.sge_iff_toNat (by omega) (by decide)).2 (by omega),
    (StableHlo.Predicate.sle_iff_toNat (by omega) (by decide)).2 (by omega)⟩

/-- A word below 19 read signed and clamped into `[0, 18]` is its value. -/
private theorem clamp_of_small {w : BitVec 32} (hw : w.toNat < 19) : min w.toInt.toNat 18 = w.toNat := by
  rw [StableHlo.Predicate.toInt_eq_toNat_of_lt (by omega)]
  omega

/-- A fold of "and" from 1 over words that are all 1 is 1. -/
private theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## The index array of the read -/

/-- The clamped label array. -/
private theorem v5_eq (Lb : IVec S8x512x512 32) (j : S8x512x512.Idx) : val_main_v5 (F := Ideal) Lb j = clampL (Lb j) := by
  rw [val_main_v5_apply, val_main_v1_apply, val_main_v0_apply, val_main_c_apply, val_main_call0_v1_apply,
    val_main_call0_v0_apply, val_main_c_1_apply]
  rfl

/-- The start index before the reshape: the clamped label with the wrap-around of negative indices. -/
private theorem call2_v4_eq (Lb : IVec S8x512x512 32) (i : S8x1x512x512.Idx) :
    val_main_call2_v4 (F := Ideal) Lb i
      = Scalar.select (IntOp.cmpi .slt (clampL (Lb (idx_main_v7 i))) 0#32) (IntOp.addi (clampL (Lb (idx_main_v7 i))) 19#32)
          (clampL (Lb (idx_main_v7 i))) := by
  rw [val_main_call2_v4_apply, val_main_call2_v1_apply, val_main_call2_v3_apply, val_main_v7_apply, v5_eq,
    val_main_call2_v0_apply, val_main_call2_c_apply, val_main_call2_v2_apply, val_main_call2_c_0_apply]

/-- With labels in range every start index is the clamped label of its pixel. -/
private theorem call2_v5_eq (Lb : IVec S8x512x512 32) (hl : LabelsInRange Lb) (i : S8x1x512x512x1.Idx) :
    val_main_call2_v5 (F := Ideal) Lb i = clampL (Lb (idx_main_v7 (idx_main_call2_v5 i))) := by
  rw [val_main_call2_v5_apply, call2_v4_eq, fix_of_small (clampL_lt (hl _))]

/-- The pixel of start index `(n, 0, y, x, 0)`. -/
private theorem idx_v5_at (n : Fin 8) (y x : Fin 512) :
    idx_main_v7 (idx_main_call2_v5 (ix5 n (0 : Fin 1) y x (0 : Fin 1))) = ix3 n y x := by
  have hn := n.isLt; have hy := y.isLt; have hx := x.isLt
  funext a; refine Fin.ext ?_
  match a with
  | ⟨0, _⟩ => show ((((n.val * 1 + 0) * 512 + y.val) * 512 + x.val) * 1 + 0) / 262144 = n.val; omega
  | ⟨1, _⟩ => show ((((n.val * 1 + 0) * 512 + y.val) * 512 + x.val) * 1 + 0) / 512 % 512 = y.val; omega
  | ⟨2, _⟩ => show ((((n.val * 1 + 0) * 512 + y.val) * 512 + x.val) * 1 + 0) % 512 = x.val; omega

/-- With labels in range the in-bounds flag of the read is set everywhere. -/
private theorem flag_all (Lb : IVec S8x512x512 32) (hl : LabelsInRange Lb) (i : S8x1x512x512x1.Idx) :
    val_main_call2_v11 (F := Ideal) Lb i = 1#1 := by
  rw [val_main_call2_v11_apply, val_main_call2_v7_apply, val_main_call2_v10_apply, val_main_call2_v6_apply,
    val_main_call2_c_2_apply, val_main_call2_v9_apply, val_main_call2_v8_apply, val_main_call2_c_1_apply,
    call2_v5_eq Lb hl]
  exact inb_of_small (clampL_lt (hl _))

private theorem flag_reduce (Lb : IVec S8x512x512 32) (hl : LabelsInRange Lb) (k : S8x1x512x512.Idx) :
    val_main_call2_v12 (F := Ideal) Lb k = 1#1 := by
  unfold val_main_call2_v12
  rw [Host.reduce_eq_foldl]
  exact foldl_andi_one _ (flag_all Lb hl) _

/-! ## The pixel -/

/-- The position of pixel `(n, y, x)` in the `[8, 1, 512, 512]` array the read returns. -/
private theorem idx_v9_at (n : Fin 8) (y x : Fin 512) : idx_main_v9 (ix3 n y x) = ix4 n (0 : Fin 1) y x := by
  have hn := n.isLt; have hy := y.isLt; have hx := x.isLt
  funext a; refine Fin.ext ?_
  match a with
  | ⟨0, _⟩ => show ((n.val * 512 + y.val) * 512 + x.val) / 262144 = n.val; omega
  | ⟨1, _⟩ => rfl
  | ⟨2, _⟩ => show ((n.val * 512 + y.val) * 512 + x.val) / 512 % 512 = y.val; omega
  | ⟨3, _⟩ => show ((n.val * 512 + y.val) * 512 + x.val) % 512 = x.val; omega

/-- At a pixel that is not ignored, the read returns the log-probability of the pixel's label. -/
private theorem v9_at (X : FVec Ideal S8x19x512x512 .f32) (Lb : IVec S8x512x512 32) (hl : LabelsInRange Lb)
    (n : Fin 8) (y x : Fin 512) (hne : Lb (ix3 n y x) ≠ 255#32) :
    val_main_v9 (F := Ideal) X Lb (ix3 n y x) = logp (pixel X n y x) (cls (Lb (ix3 n y x))) := by
  have hlt : (Lb (ix3 n y x)).toNat < 19 := (hl _).resolve_left hne
  rw [val_main_v9_apply, idx_v9_at, val_main_v8_apply, flag_reduce Lb hl, select_one]
  unfold val_main_call2_v13
  rw [gather_read, logsoftmax_at]
  congr 1
  apply Fin.ext
  show min (val_main_call2_v5 (F := Ideal) Lb (ix5 n (0 : Fin 1) y x (0 : Fin 1))).toInt.toNat 18 = (Lb (ix3 n y x)).toNat % 19
  rw [call2_v5_eq Lb hl, idx_v5_at, clampL_of_ne hne, clamp_of_small hlt, Nat.mod_eq_of_lt hlt]

/-- The reference's loss at pixel `(n, y, x)` is the specification's. -/
private theorem pixel_at (X : FVec Ideal S8x19x512x512 .f32) (Lb : IVec S8x512x512 32) (hl : LabelsInRange Lb)
    (n : Fin 8) (y x : Fin 512) :
    val_main_v17 (F := Ideal) X Lb (ix3 n y x) = pixLoss (pixel X n y x) (Lb (ix3 n y x)) := by
  rw [val_main_v17_apply, val_main_v1_apply, val_main_v0_apply, val_main_c_apply]
  unfold pixLoss
  by_cases h : Lb (ix3 n y x) = 255#32
  · rw [if_pos h, IntOp.cmpi_eq.2 h, select_one, val_main_call3_v1_apply, val_main_call3_v0_apply, val_main_cst_4_apply]
    exact Ideal.ofBits_zero_f32
  · have h0 : IntOp.cmpi .eq (Lb (ix3 n y x)) 255#32 = 0#1 := eq_zero_of_ne_one (fun e => h (IntOp.cmpi_eq.1 e))
    rw [if_neg h, h0, select_zero, val_main_v16_apply, val_main_v15_apply, val_main_v11_apply, val_main_v14_apply,
      val_main_v10_apply, val_main_cst_apply, val_main_v13_apply, val_main_cst_3_apply, v9_at X Lb hl n y x h, sumlogs_at]
    rfl

/-- With labels in range, the reference's last stage is the constant array at the mean loss. -/
theorem value_eq (X : FVec Ideal Cert.ReferenceIdeal.S8x19x512x512 .f32) (Lb : IVec Cert.ReferenceIdeal.S8x512x512 32)
    (hl : LabelsInRange Lb) :
    Cert.ReferenceIdeal.ReadP.val_main_v20 (F := Ideal) X Lb = fun _ => meanLoss X Lb :=
  value_of_pixels X Lb (fun n y x => pixel_at X Lb hl n y x)

end Cert.SmoothCE.Ref

end
-- ==== Proof.PreFacts.lean ====
/-
  What the precondition says, element by element: every logit is a real number, and every label word is the ignore
  word 255 or a class number below 19.

  The precondition is the conjunction of two reductions by "and": of `|x| < +∞` over all logits, and of
  `l = 255 ∨ (0 ≤ l ∧ l < 19)` (signed comparisons) over all labels.
-/
import proofs.«422704_j68393059221597_2_alg».proof.Pre_finite_inputs
import proofs.«422704_j68393059221597_2_alg».proof.Proof.Spec
import Idealize.ShloMosaic.Lib.ReduceAll
import Idealize.ShloMosaic.Lib.StableHlo.Predicate

noncomputable section

namespace Cert.SmoothCE.Pre

open Idealize.ShloMosaic Cert.SmoothCE

/-- The single-precision word of positive infinity reads as the top element. -/
private theorem inf_word : (FloatOps.ofBits .f32 0x7F800000#32 : Ideal .f32) = (⊤ : EReal) := by
  show Ideal.ofBits .f32 0x7F800000#32 = ⊤
  have e1 : (BitVec.extractLsb' 23 8 (0x7F800000#32)).toNat = 255 := by decide
  have e2 : (BitVec.extractLsb' 0 23 (0x7F800000#32)).toNat = 0 := by decide
  have e3 : (BitVec.extractLsb' (8 + 23) 1 (0x7F800000#32) == 1#1) = false := by decide
  simp only [Ideal.ofBits, Ideal.ieee, e1, e2, e3]
  norm_num

/-- An extended real whose absolute value is below the top element is a real number. -/
private theorem real_of_abs_lt_top (x : EReal) (h : Ideal.cmp .olt (max x (-x)) ⊤ = 1#1) : ∃ r : ℝ, x = (r : EReal) := by
  simp only [Ideal.cmp, StableHlo.Predicate.ofBool_eq_one_iff, decide_eq_true_eq] at h
  induction x using EReal.rec with
  | bot => simp at h
  | coe r => exact ⟨r, rfl⟩
  | top => simp at h

/-- A word that is 255, or is signed-between 0 and 19, is 255 or has value below 19. -/
private theorem label_of_pred (l : BitVec 32)
    (h : IntOp.ori (IntOp.cmpi .eq l 255#32) (IntOp.andi (IntOp.cmpi .sge l 0#32) (IntOp.cmpi .slt l 19#32)) = 1#1) :
    l = 255#32 ∨ l.toNat < 19 := by
  rcases IntOp.ori_eq_one.1 h with h1 | h2
  · exact Or.inl (IntOp.cmpi_eq.1 h1)
  · obtain ⟨ha, hb⟩ := IntOp.andi_eq_one.1 h2
    rw [IntOp.cmpi_sge] at ha
    rw [IntOp.cmpi_slt] at hb
    have h0 : (0#32 : BitVec 32).toInt = 0 := by decide
    have h19 : (19#32 : BitVec 32).toInt = 19 := by decide
    rw [h0] at ha
    rw [h19] at hb
    have hl := BitVec.toInt_eq_toNat_cond l
    have hlt := l.isLt
    right
    split_ifs at hl with hc <;> omega

/-- From the printed precondition to the two elementwise facts. -/
theorem facts_of_pre [Cert.Pre_finite_inputs.Facts] (X : FVec Ideal Cert.Pre_finite_inputs.S8x19x512x512 .f32)
    (Lb : IVec Cert.Pre_finite_inputs.S8x512x512 32)
    (h : Cert.Pre_finite_inputs.fn (F := Ideal) X Lb = fun _ => 1#1) :
    FiniteLogits X ∧ LabelsInRange Lb := by
  have h0 := congrFun h ValueIdx.ix0
  dsimp only [Cert.Pre_finite_inputs.fn] at h0
  haveI : Subsingleton Cert.Pre_finite_inputs.S_.Idx := ⟨fun a b => funext fun d => d.elim0⟩
  obtain ⟨hA, hB⟩ := IntOp.andi_eq_one.1 (show IntOp.andi _ _ = 1#1 from h0)
  constructor
  · intro i
    have hi := Host.reduce_andi_all _ _ _ _ _ hA i
    apply real_of_abs_lt_top
    rw [← inf_word]
    exact hi
  · intro j
    have hj := Host.reduce_andi_all _ _ _ _ _ hB j
    exact label_of_pred (Lb j) hj

end Cert.SmoothCE.Pre

end
-- ==== Proof.lean ====
/-
  The certificate of the label-smoothed cross-entropy kernel against its reference.

  Under the precondition (every logit a real number; every label the ignore word 255 or a class below 19) both
  programs end with the mean, over the pixels that are not ignored, of the pixel losses
  `-(α · logp(label) + β · ∑ c, logp c)` (Spec.lean). The kernel reaches it image by image and tile by tile: two
  running rows of column sums, their lane sums written out at an image's last tile, the eight totals added and
  divided on the host; per pixel it uses the log-sum-exp in place of the log-probabilities, which is the same number on
  real logits (PixelAlgebra.lean). The reference forms the log-probabilities, reads the target's by a gather that is
  in range under the precondition, and divides the total by the converted integer count.
  The three programs run and leave their arguments unchanged; the idealization rewrote nothing.
-/
import proofs.«422704_j68393059221597_2_alg».proof.Defs
import proofs.«422704_j68393059221597_2_alg».proof.Proof.Gen.Kernel
import proofs.«422704_j68393059221597_2_alg».proof.Proof.Gen.Kernel.Frame
import proofs.«422704_j68393059221597_2_alg».proof.Proof.Gen.KernelIdeal
import proofs.«422704_j68393059221597_2_alg».proof.Proof.Gen.KernelIdeal.Frame
import proofs.«422704_j68393059221597_2_alg».proof.Proof.Gen.ReferenceIdeal
import proofs.«422704_j68393059221597_2_alg».proof.Proof.Gen.Pre_finite_inputs
import proofs.«422704_j68393059221597_2_alg».proof.Proof.KernelValue
import proofs.«422704_j68393059221597_2_alg».proof.Proof.RefValue
import proofs.«422704_j68393059221597_2_alg».proof.Proof.PreFacts
import Idealize.ShloMosaic.Adequacy
import Idealize.ShloMosaic.Init

noncomputable section

namespace Cert.Proof

open Idealize.ShloMosaic Idealize.SL.Sem Cert.SmoothCE

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- From memories that agree on the arguments both idealized programs end with the mean loss of the specification. -/
theorem algebraic : Cert.algebraic_KernelIdeal_ReferenceIdeal := by
  intro m ρ m' ρ' hpre hagree
  have hfin : ∀ c : Dev Cert.KernelIdeal.nD,
      FiniteLogits (m ((c.tc : Thread Cert.KernelIdeal.nD Cert.KernelIdeal.τ).loc Cert.KernelIdeal.main_arg0))
      ∧ LabelsInRange (m ((c.tc : Thread Cert.KernelIdeal.nD Cert.KernelIdeal.τ).loc Cert.KernelIdeal.main_arg1)) :=
    fun c => Cert.SmoothCE.Pre.facts_of_pre _ _ (hpre c)
  refine ⟨fun c _ => meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact Cert.SmoothCE.Kernel.run m ρ hfin
  · refine (θ_run Cert.ReferenceIdeal.defs _ _).mono (fun _ h c => ⟨?_, (h c).2⟩)
      (Cert.ReferenceIdeal.RunP.run (F := Ideal) m' ρ')
    rw [(h c).1, Cert.ReferenceIdeal.ReadP.val_main_v20_eq, (hagree c).1, (hagree c).2]
    exact Cert.SmoothCE.Ref.value_eq _ _ (hfin c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
